-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S16000000 : Shape := ⟨1, ![16000000]⟩
abbrev S3x16 : Shape := ⟨2, ![3, 16]⟩
abbrev S16 : Shape := ⟨1, ![16]⟩
abbrev S16x3 : Shape := ⟨2, ![16, 3]⟩
abbrev S3 : Shape := ⟨1, ![3]⟩
abbrev S_ : Shape := ⟨0, ![]⟩

class Facts : Prop where
  bcast_S_S4000000 : S_.BroadcastsInDim S4000000 (![] : Fin 0 → Fin S4000000.rank)
  reducesTo_S4000000_S_d0 : S4000000.ReducesTo [0] S_
  h_S_ : 0 < S_.numel
  bcast_S_S16000000 : S_.BroadcastsInDim S16000000 (![] : Fin 0 → Fin S16000000.rank)
  reducesTo_S16000000_S_d0 : S16000000.ReducesTo [0] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg4 : FVec F S3x16 .f32) (main_arg5 : FVec F S16 .f32) (main_arg6 : FVec F S16x3 .f32) (main_arg7 : FVec F S3 .f32) (main_v13 : IVec S_ 1) (main_v16 : IVec S16000000 1) : IVec S_ 1 :=
  let main_c_5 : IVec S_ 1 := constantI S_ 1 1#1
  let main_v17 : IVec S_ 1 := (fun x v => Host.reduce IntOp.andi x v reducesTo_S16000000_S_d0 h_S_) main_v16 main_c_5
  let main_v18 : IVec S_ 1 := andi main_v13 main_v17
  let main_v19 : FVec F S3x16 .f32 := Host.absf main_arg4
  let main_cst_6 : FVec F S_ .f32 := constant S_ .f32 0x7F800000#32
  let main_v20 : FVec F S3x16 .f32 := broadcastInDim S3x16 ![] bcast_S_S3x16 main_cst_6
  let main_v21 : IVec S3x16 1 := cmpf .olt main_v19 main_v20
  let main_c_7 : IVec S_ 1 := constantI S_ 1 1#1
  let main_v22 : IVec S_ 1 := (fun x v => Host.reduce IntOp.andi x v reducesTo_S3x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x3 .f32 := Host.absf main_arg6
  let main_cst_10 : FVec F S_ .f32 := constant S_ .f32 0x7F800000#32
  let main_v30 : FVec F S16x3 .f32 := broadcastInDim S16x3 ![] bcast_S_S16x3 main_cst_10
  let main_v31 : IVec S16x3 1 := cmpf .olt main_v29 main_v30
  let main_c_11 : IVec S_ 1 := constantI S_ 1 1#1
  let main_v32 : IVec S_ 1 := (fun x v => Host.reduce IntOp.andi x v reducesTo_S16x3_S_d0_1 h_S_) main_v31 main_c_11
  let main_v33 : IVec S_ 1 := andi main_v28 main_v32
  fn_part2 (F := F) main_arg7 main_v33

def fn {F : FTy → Type} [FloatOps F] (main_arg0 : FVec F S4000000 .f32) (main_arg1 : FVec F S16000000 .f32) (main_arg2 : FVec F S16000000 .f32) (main_arg3 : FVec F S16000000 .f32) (main_arg4 : FVec F S3x16 .f32) (main_arg5 : FVec F S16 .f32) (main_arg6 : FVec F S16x3 .f32) (main_arg7 : FVec F S3 .f32) (main_arg8 : IVec S4000000 32) (main_arg9 : IVec S16000000 32) (main_arg10 : IVec S16000000 32) (main_arg11 : IVec S16000000 32) : IVec S_ 1 :=
  let main_v0 : FVec F S4000000 .f32 := Host.absf main_arg0
  let main_cst : FVec F S_ .f32 := constant S_ .f32 0x7F800000#32
  let main_v1 : FVec F S4000000 .f32 := broadcastInDim S4000000 ![] bcast_S_S4000000 main_cst
  let main_v2 : IVec S4000000 1 := cmpf .olt main_v0 main_v1
  let main_c : IVec S_ 1 := constantI S_ 1 1#1
  let main_v3 : IVec S_ 1 := (fun x v => Host.reduce IntOp.andi x v reducesTo_S4000000_S_d0 h_S_) main_v2 main_c
  let main_v4 : FVec F S16000000 .f32 := Host.absf main_arg1
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S16000000 .f32 := Host.absf main_arg2
  let main_cst_2 : FVec F S_ .f32 := constant S_ .f32 0x7F800000#32
  let main_v10 : FVec F S16000000 .f32 := broadcastInDim S16000000 ![] bcast_S_S16000000 main_cst_2
  let main_v11 : IVec S16000000 1 := cmpf .olt main_v9 main_v10
  let main_c_3 : IVec S_ 1 := constantI S_ 1 1#1
  let main_v12 : IVec S_ 1 := (fun x v => Host.reduce IntOp.andi x v reducesTo_S16000000_S_d0 h_S_) main_v11 main_c_3
  let main_v13 : IVec S_ 1 := andi main_v8 main_v12
  let main_v14 : FVec F S16000000 .f32 := Host.absf main_arg3
  let main_cst_4 : FVec F S_ .f32 := constant S_ .f32 0x7F800000#32
  let main_v15 : FVec F S16000000 .f32 := broadcastInDim S16000000 ![] bcast_S_S16000000 main_cst_4
  let main_v16 : IVec S16000000 1 := cmpf .olt main_v14 main_v15
  fn_part1 (F := F) main_arg4 main_arg5 main_arg6 main_arg7 main_v13 main_v16
-- ==== Kernel.lean ====
abbrev S4000000 : Shape := ⟨1, ![4000000]⟩
abbrev S16000000 : Shape := ⟨1, ![16000000]⟩
abbrev S3x16 : Shape := ⟨2, ![3, 16]⟩
abbrev S16 : Shape := ⟨1, ![16]⟩
abbrev S16x3 : Shape := ⟨2, ![16, 3]⟩
abbrev S3 : Shape := ⟨1, ![3]⟩
abbrev S_ : Shape := ⟨0, ![]⟩
abbrev S4194304 : Shape := ⟨1, ![4194304]⟩
abbrev S524288 : Shape := ⟨1, ![524288]⟩
abbrev S16000000x1 : Shape := ⟨2, ![16000000, 1]⟩
abbrev S125000x128 : Shape := ⟨2, ![125000, 128]⟩
abbrev S1000x128 : Shape := ⟨2, ![1000, 128]⟩
abbrev S1x1 : Shape := ⟨2, ![1, 1]⟩
abbrev S1 : Shape := ⟨1, ![1]⟩

abbrev nBuf : Space → Nat
  | .hbm => 97
  | .vmem => 36
  | .smem => 0
  | _ => 0

abbrev bufTy : (tb : Table) → Fin (tcTables nBuf tb) → BufTy
  | .hbm, ⟨0, _⟩ => ⟨S4000000, .f32⟩
  | .hbm, ⟨1, _⟩ => ⟨S16000000, .f32⟩
  | .hbm, ⟨2, _⟩ => ⟨S16000000, .f32⟩
  | .hbm, ⟨3, _⟩ => ⟨S16000000, .f32⟩
  | .hbm, ⟨4, _⟩ => ⟨S3x16, .f32⟩
  | .hbm, ⟨5, _⟩ => ⟨S16, .f32⟩
  | .hbm, ⟨6, _⟩ => ⟨S16x3, .f32⟩
  | .hbm, ⟨7, _⟩ => ⟨S3, .f32⟩
  | .hbm, ⟨8, _⟩ => ⟨S4000000, .i32⟩
  | .hbm, ⟨9, _⟩ => ⟨S16000000, .i32⟩
  | .hbm, ⟨10, _⟩ => ⟨S16000000, .i32⟩
  | .hbm, ⟨11, _⟩ => ⟨S16000000, .i32⟩
  | .hbm, ⟨12, _⟩ => ⟨S_, .i32⟩
  | .hbm, ⟨13, _⟩ => ⟨S_, .f32⟩
  | .hbm, ⟨14, _⟩ => ⟨S4194304, .f32⟩
  | .hbm, ⟨15, _⟩ => ⟨S_, .i32⟩
  | .hbm, ⟨16, _⟩ => ⟨S_, .i32⟩
  | .hbm, ⟨17, _⟩ => ⟨S4194304, .i32⟩
  | .hbm, ⟨18, _⟩ => ⟨S4194304, .f32⟩
  | .hbm, ⟨19, _⟩ => ⟨S4194304, .f32⟩
  | .hbm, ⟨20, _⟩ => ⟨S4000000, .f32⟩
  | .hbm, ⟨21, _⟩ => ⟨S4000000, .f32⟩
  | .hbm, ⟨22, _⟩ => ⟨S_, .i32⟩
  | .hbm, ⟨23, _⟩ => ⟨S16000000, .i32⟩
  | .hbm, ⟨24, _⟩ => ⟨S16000000, .i1⟩
  | .hbm, ⟨25, _⟩ => ⟨S_, .i32⟩
  | .hbm, ⟨26, _⟩ => ⟨S16000000, .i32⟩
  | .hbm, ⟨27, _⟩ => ⟨S16000000, .i32⟩
  | .hbm, ⟨28, _⟩ => ⟨S16000000, .i32⟩
  | .hbm, ⟨29, _⟩ => ⟨S16000000x1, .i32⟩
  | .hbm, ⟨30, _⟩ => ⟨S16000000, .f32⟩
  | .hbm, ⟨31, _⟩ => ⟨S_, .i32⟩
  | .hbm, ⟨32, _⟩ => ⟨S16000000, .i32⟩
  | .hbm, ⟨33, _⟩ => ⟨S16000000, .i1⟩
  | .hbm, ⟨34, _⟩ => ⟨S_, .i32⟩
  | .hbm, ⟨35, _⟩ => ⟨S16000000, .i32⟩
  | .hbm, ⟨36, _⟩ => ⟨S16000000, .i32⟩
  | .hbm, ⟨37, _⟩ => ⟨S16000000, .i32⟩
  | .hbm, ⟨38, _⟩ => ⟨S16000000x1, .i32⟩
  | .hbm, ⟨39, _⟩ => ⟨S16000000, .f32⟩
  | .hbm, ⟨40, _⟩ => ⟨S_, .i32⟩
  | .hbm, ⟨41, _⟩ => ⟨S16000000, .i32⟩
  | .hbm, ⟨42, _⟩ => ⟨S16000000, .i1⟩
  | .hbm, ⟨43, _⟩ => ⟨S_, .i32⟩
  | .hbm, ⟨44, _⟩ => ⟨S16000000, .i32⟩
  | .hbm, ⟨45, _⟩ => ⟨S16000000, .i32⟩
  | .hbm, ⟨46, _⟩ => ⟨S16000000, .i32⟩
  | .hbm, ⟨47, _⟩ => ⟨S16000000x1, .i32⟩
  | .hbm, ⟨48, _⟩ => ⟨S16000000, .f32⟩
  | .hbm, ⟨49, _⟩ => ⟨S125000x128, .f32⟩
  | .hbm, ⟨50, _⟩ => ⟨S125000x128, .f32⟩
  | .hbm, ⟨51, _⟩ => ⟨S125000x128, .f32⟩
  | .hbm, ⟨52, _⟩ => ⟨S125000x128, .f32⟩
  | .hbm, ⟨53, _⟩ => ⟨S125000x128, .f32⟩
  | .hbm, ⟨54, _⟩ => ⟨S125000x128, .f32⟩
  | .hbm, ⟨55, _⟩ => ⟨S125000x128, .f32⟩
  | .hbm, ⟨56, _⟩ => ⟨S125000x128, .f32⟩
  | .hbm, ⟨57, _⟩ => ⟨S125000x128, .f32⟩
  | .hbm, ⟨58, _⟩ => ⟨S125000x128, .f32⟩
  | .hbm, ⟨59, _⟩ => ⟨S125000x128, .f32⟩
  | .hbm, ⟨60, _⟩ => ⟨S125000x128, .f32⟩
  | .hbm, ⟨61, _⟩ => ⟨S16000000, .f32⟩
  | .hbm, ⟨62, _⟩ => ⟨S16000000, .f32⟩
  | .hbm, ⟨63, _⟩ => ⟨S16000000, .f32⟩
  | .hbm, ⟨64, _⟩ => ⟨S16000000, .f32⟩
  | .hbm, ⟨65, _⟩ => ⟨S16000000, .f32⟩
  | .hbm, ⟨66, _⟩ => ⟨S16000000, .f32⟩
  | .hbm, ⟨67, _⟩ => ⟨S_, .f32⟩
  | .hbm, ⟨68, _⟩ => ⟨S4000000, .f32⟩
  | .hbm, ⟨69, _⟩ => ⟨S_, .i32⟩
  | .hbm, ⟨70, _⟩ => ⟨S16000000, .i32⟩
  | .hbm, ⟨71, _⟩ => ⟨S16000000, .i1⟩
  | .hbm, ⟨72, _⟩ => ⟨S_, .i32⟩
  | .hbm, ⟨73, _⟩ => ⟨S16000000, .i32⟩
  | .hbm, ⟨74, _⟩ => ⟨S16000000, .i32⟩
  | .hbm, ⟨75, _⟩ => ⟨S16000000, .i32⟩
  | .hbm, ⟨76, _⟩ => ⟨S16000000x1, .i32⟩
  | .hbm, ⟨77, _⟩ => ⟨S4000000, .f32⟩
  | .hbm, ⟨78, _⟩ => ⟨S_, .i32⟩
  | .hbm, ⟨79, _⟩ => ⟨S16000000, .i32⟩
  | .hbm, ⟨80, _⟩ => ⟨S16000000, .i1⟩
  | .hbm, ⟨81, _⟩ => ⟨S_, .i32⟩
  | .hbm, ⟨82, _⟩ => ⟨S16000000, .i32⟩
  | .hbm, ⟨83, _⟩ => ⟨S16000000, .i32⟩
  | .hbm, ⟨84, _⟩ => ⟨S16000000, .i32⟩
  | .hbm, ⟨85, _⟩ => ⟨S16000000x1, .i32⟩
  | .hbm, ⟨86, _⟩ => ⟨S4000000, .f32⟩
  | .hbm, ⟨87, _⟩ => ⟨S_, .i32⟩
  | .hbm, ⟨88, _⟩ => ⟨S16000000, .i32⟩
  | .hbm, ⟨89, _⟩ => ⟨S16000000, .i1⟩
  | .hbm, ⟨90, _⟩ => ⟨S_, .i32⟩
  | .hbm, ⟨91, _⟩ => ⟨S16000000, .i32⟩
  | .hbm, ⟨92, _⟩ => ⟨S16000000, .i32⟩
  | .hbm, ⟨93, _⟩ => ⟨S16000000, .i32⟩
  | .hbm, ⟨94, _⟩ => ⟨S16000000x1, .i32⟩
  | .hbm, ⟨95, _⟩ => ⟨S4000000, .f32⟩
  | .hbm, ⟨96, _⟩ => ⟨S4000000, .f32⟩
  | .local _ .vmem, ⟨0, _⟩ => ⟨S524288, .f32⟩
  | .local _ .vmem, ⟨1, _⟩ => ⟨S524288, .f32⟩
  | .local _ .vmem, ⟨2, _⟩ => ⟨S524288, .i32⟩
  | .local _ .vmem, ⟨3, _⟩ => ⟨S524288, .i32⟩
  | .local _ .vmem, ⟨4, _⟩ => ⟨S524288, .f32⟩
  | .local _ .vmem, ⟨5, _⟩ => ⟨S524288, .f32⟩
  | .local _ .vmem, ⟨6, _⟩ => ⟨S524288, .f32⟩
  | .local _ .vmem, ⟨7, _⟩ => ⟨S524288, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S3x16, .f32⟩
  | .local _ .vmem, ⟨21, _⟩ => ⟨S16, .f32⟩
  | .local _ .vmem, ⟨22, _⟩ => ⟨S16x3, .f32⟩
  | .local _ .vmem, ⟨23, _⟩ => ⟨S3, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | _, _ => ⟨S4000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_c_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_v12 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_c_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v32_2 : Ref sig .tc := ⟨.hbm, 57, rfl⟩
abbrev main_v32_3 : Ref sig .tc := ⟨.hbm, 58, rfl⟩
abbrev main_v32_4 : Ref sig .tc := ⟨.hbm, 59, rfl⟩
abbrev main_v32_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_c_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc1_stg14_0 : Ref sig .tc := ⟨.vmem, 32, rfl⟩
abbrev cc1_stg14_1 : Ref sig .tc := ⟨.vmem, 33, rfl⟩
abbrev cc1_stg15_0 : Ref sig .tc := ⟨.vmem, 34, rfl⟩
abbrev cc1_stg15_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31
abbrev cc1_sem14_0 : DmaSem sig := 32
abbrev cc1_sem14_1 : DmaSem sig := 33
abbrev cc1_sem15_0 : DmaSem sig := 34
abbrev cc1_sem15_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S524288 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S524288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S524288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S3x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  pads_S4000000_S4194304_01943040 : S4000000.Pads (![0] : Fin 1 → Nat) ![194304] ![0] S4194304
  h_S_ : 0 < S_.numel
  inb_S524288_S524288_0 : ∀ a, (![0] : Fin 1 → Nat) a + S524288.size a ≤ S524288.size a
  h_S524288 : 0 < S524288.numel
  shapeCasts_S524288_S524288 : S524288.ShapeCasts S524288
  slices_S4194304_S4000000_0 : S4194304.Slices ![0] S4000000
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S16000000_S125000x128 : S16000000.ShapeCasts S125000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S3x16_S3x16_0_0 : ∀ a, (![0, 0] : Fin 2 → Nat) a + S3x16.size a ≤ S3x16.size a
  h_S3x16 : 0 < S3x16.numel
  inb_S16_S16_0 : ∀ a, (![0] : Fin 1 → Nat) a + S16.size a ≤ S16.size a
  h_S16 : 0 < S16.numel
  inb_S16x3_S16x3_0_0 : ∀ a, (![0, 0] : Fin 2 → Nat) a + S16x3.size a ≤ S16x3.size a
  h_S16x3 : 0 < S16x3.numel
  inb_S3_S3_0 : ∀ a, (![0] : Fin 1 → Nat) a + S3.size a ≤ S3.size a
  h_S3 : 0 < S3.numel
  slices_S3x16_o0_0_S1x1 : S3x16.Slices ![0, 0] S1x1
  inpos_S1x1_p0_0 : ∀ a, (![0, 0] : Fin 2 → Nat) a < S1x1.size a
  slices_S3x16_o1_0_S1x1 : S3x16.Slices ![1, 0] S1x1
  slices_S3x16_o2_0_S1x1 : S3x16.Slices ![2, 0] S1x1
  slices_S16_o0_S1 : S16.Slices ![0] S1
  inpos_S1_p0 : ∀ a, (![0] : Fin 1 → Nat) a < S1.size a
  slices_S16x3_o0_0_S1x1 : S16x3.Slices ![0, 0] S1x1
  slices_S16x3_o0_1_S1x1 : S16x3.Slices ![0, 1] S1x1
  slices_S16x3_o0_2_S1x1 : S16x3.Slices ![0, 2] S1x1
  slices_S3x16_o0_1_S1x1 : S3x16.Slices ![0, 1] S1x1
  slices_S3x16_o1_1_S1x1 : S3x16.Slices ![1, 1] S1x1
  slices_S3x16_o2_1_S1x1 : S3x16.Slices ![2, 1] S1x1
  slices_S16_o1_S1 : S16.Slices ![1] S1
  slices_S16x3_o1_0_S1x1 : S16x3.Slices ![1, 0] S1x1
  slices_S16x3_o1_1_S1x1 : S16x3.Slices ![1, 1] S1x1
  slices_S16x3_o1_2_S1x1 : S16x3.Slices ![1, 2] S1x1
  slices_S3x16_o0_2_S1x1 : S3x16.Slices ![0, 2] S1x1
  slices_S3x16_o1_2_S1x1 : S3x16.Slices ![1, 2] S1x1
  slices_S3x16_o2_2_S1x1 : S3x16.Slices ![2, 2] S1x1
  slices_S16_o2_S1 : S16.Slices ![2] S1
  slices_S16x3_o2_0_S1x1 : S16x3.Slices ![2, 0] S1x1
  slices_S16x3_o2_1_S1x1 : S16x3.Slices ![2, 1] S1x1
  slices_S16x3_o2_2_S1x1 : S16x3.Slices ![2, 2] S1x1
  slices_S3x16_o0_3_S1x1 : S3x16.Slices ![0, 3] S1x1
  slices_S3x16_o1_3_S1x1 : S3x16.Slices ![1, 3] S1x1
  slices_S3x16_o2_3_S1x1 : S3x16.Slices ![2, 3] S1x1
  slices_S16_o3_S1 : S16.Slices ![3] S1
  slices_S16x3_o3_0_S1x1 : S16x3.Slices ![3, 0] S1x1
  slices_S16x3_o3_1_S1x1 : S16x3.Slices ![3, 1] S1x1
  slices_S16x3_o3_2_S1x1 : S16x3.Slices ![3, 2] S1x1
  slices_S3x16_o0_4_S1x1 : S3x16.Slices ![0, 4] S1x1
  slices_S3x16_o1_4_S1x1 : S3x16.Slices ![1, 4] S1x1
  slices_S3x16_o2_4_S1x1 : S3x16.Slices ![2, 4] S1x1
  slices_S16_o4_S1 : S16.Slices ![4] S1
  slices_S16x3_o4_0_S1x1 : S16x3.Slices ![4, 0] S1x1
  slices_S16x3_o4_1_S1x1 : S16x3.Slices ![4, 1] S1x1
  slices_S16x3_o4_2_S1x1 : S16x3.Slices ![4, 2] S1x1
  slices_S3x16_o0_5_S1x1 : S3x16.Slices ![0, 5] S1x1
  slices_S3x16_o1_5_S1x1 : S3x16.Slices ![1, 5] S1x1
  slices_S3x16_o2_5_S1x1 : S3x16.Slices ![2, 5] S1x1
  slices_S16_o5_S1 : S16.Slices ![5] S1
  slices_S16x3_o5_0_S1x1 : S16x3.Slices ![5, 0] S1x1
  slices_S16x3_o5_1_S1x1 : S16x3.Slices ![5, 1] S1x1
  slices_S16x3_o5_2_S1x1 : S16x3.Slices ![5, 2] S1x1
  slices_S3x16_o0_6_S1x1 : S3x16.Slices ![0, 6] S1x1
  slices_S3x16_o1_6_S1x1 : S3x16.Slices ![1, 6] S1x1
  slices_S3x16_o2_6_S1x1 : S3x16.Slices ![2, 6] S1x1
  slices_S16_o6_S1 : S16.Slices ![6] S1
  slices_S16x3_o6_0_S1x1 : S16x3.Slices ![6, 0] S1x1
  slices_S16x3_o6_1_S1x1 : S16x3.Slices ![6, 1] S1x1
  slices_S16x3_o6_2_S1x1 : S16x3.Slices ![6, 2] S1x1
  slices_S3x16_o0_7_S1x1 : S3x16.Slices ![0, 7] S1x1
  slices_S3x16_o1_7_S1x1 : S3x16.Slices ![1, 7] S1x1
  slices_S3x16_o2_7_S1x1 : S3x16.Slices ![2, 7] S1x1
  slices_S16_o7_S1 : S16.Slices ![7] S1
  slices_S16x3_o7_0_S1x1 : S16x3.Slices ![7, 0] S1x1
  slices_S16x3_o7_1_S1x1 : S16x3.Slices ![7, 1] S1x1
  slices_S16x3_o7_2_S1x1 : S16x3.Slices ![7, 2] S1x1
  slices_S3x16_o0_8_S1x1 : S3x16.Slices ![0, 8] S1x1
  slices_S3x16_o1_8_S1x1 : S3x16.Slices ![1, 8] S1x1
  slices_S3x16_o2_8_S1x1 : S3x16.Slices ![2, 8] S1x1
  slices_S16_o8_S1 : S16.Slices ![8] S1
  slices_S16x3_o8_0_S1x1 : S16x3.Slices ![8, 0] S1x1
  slices_S16x3_o8_1_S1x1 : S16x3.Slices ![8, 1] S1x1
  slices_S16x3_o8_2_S1x1 : S16x3.Slices ![8, 2] S1x1
  slices_S3x16_o0_9_S1x1 : S3x16.Slices ![0, 9] S1x1
  slices_S3x16_o1_9_S1x1 : S3x16.Slices ![1, 9] S1x1
  slices_S3x16_o2_9_S1x1 : S3x16.Slices ![2, 9] S1x1
  slices_S16_o9_S1 : S16.Slices ![9] S1
  slices_S16x3_o9_0_S1x1 : S16x3.Slices ![9, 0] S1x1
  slices_S16x3_o9_1_S1x1 : S16x3.Slices ![9, 1] S1x1
  slices_S16x3_o9_2_S1x1 : S16x3.Slices ![9, 2] S1x1
  slices_S3x16_o0_10_S1x1 : S3x16.Slices ![0, 10] S1x1
  slices_S3x16_o1_10_S1x1 : S3x16.Slices ![1, 10] S1x1
  slices_S3x16_o2_10_S1x1 : S3x16.Slices ![2, 10] S1x1
  slices_S16_o10_S1 : S16.Slices ![10] S1
  slices_S16x3_o10_0_S1x1 : S16x3.Slices ![10, 0] S1x1
  slices_S16x3_o10_1_S1x1 : S16x3.Slices ![10, 1] S1x1
  slices_S16x3_o10_2_S1x1 : S16x3.Slices ![10, 2] S1x1
  slices_S3x16_o0_11_S1x1 : S3x16.Slices ![0, 11] S1x1
  slices_S3x16_o1_11_S1x1 : S3x16.Slices ![1, 11] S1x1
  slices_S3x16_o2_11_S1x1 : S3x16.Slices ![2, 11] S1x1
  slices_S16_o11_S1 : S16.Slices ![11] S1
  slices_S16x3_o11_0_S1x1 : S16x3.Slices ![11, 0] S1x1
  slices_S16x3_o11_1_S1x1 : S16x3.Slices ![11, 1] S1x1
  slices_S16x3_o11_2_S1x1 : S16x3.Slices ![11, 2] S1x1
  slices_S3x16_o0_12_S1x1 : S3x16.Slices ![0, 12] S1x1
  slices_S3x16_o1_12_S1x1 : S3x16.Slices ![1, 12] S1x1
  slices_S3x16_o2_12_S1x1 : S3x16.Slices ![2, 12] S1x1
  slices_S16_o12_S1 : S16.Slices ![12] S1
  slices_S16x3_o12_0_S1x1 : S16x3.Slices ![12, 0] S1x1
  slices_S16x3_o12_1_S1x1 : S16x3.Slices ![12, 1] S1x1
  slices_S16x3_o12_2_S1x1 : S16x3.Slices ![12, 2] S1x1
  slices_S3x16_o0_13_S1x1 : S3x16.Slices ![0, 13] S1x1
  slices_S3x16_o1_13_S1x1 : S3x16.Slices ![1, 13] S1x1
  slices_S3x16_o2_13_S1x1 : S3x16.Slices ![2, 13] S1x1
  slices_S16_o13_S1 : S16.Slices ![13] S1
  slices_S16x3_o13_0_S1x1 : S16x3.Slices ![13, 0] S1x1
  slices_S16x3_o13_1_S1x1 : S16x3.Slices ![13, 1] S1x1
  slices_S16x3_o13_2_S1x1 : S16x3.Slices ![13, 2] S1x1
  slices_S3x16_o0_14_S1x1 : S3x16.Slices ![0, 14] S1x1
  slices_S3x16_o1_14_S1x1 : S3x16.Slices ![1, 14] S1x1
  slices_S3x16_o2_14_S1x1 : S3x16.Slices ![2, 14] S1x1
  slices_S16_o14_S1 : S16.Slices ![14] S1
  slices_S16x3_o14_0_S1x1 : S16x3.Slices ![14, 0] S1x1
  slices_S16x3_o14_1_S1x1 : S16x3.Slices ![14, 1] S1x1
  slices_S16x3_o14_2_S1x1 : S16x3.Slices ![14, 2] S1x1
  slices_S3x16_o0_15_S1x1 : S3x16.Slices ![0, 15] S1x1
  slices_S3x16_o1_15_S1x1 : S3x16.Slices ![1, 15] S1x1
  slices_S3x16_o2_15_S1x1 : S3x16.Slices ![2, 15] S1x1
  slices_S16_o15_S1 : S16.Slices ![15] S1
  slices_S16x3_o15_0_S1x1 : S16x3.Slices ![15, 0] S1x1
  slices_S16x3_o15_1_S1x1 : S16x3.Slices ![15, 1] S1x1
  slices_S16x3_o15_2_S1x1 : S16x3.Slices ![15, 2] S1x1
  slices_S3_o0_S1 : S3.Slices ![0] S1
  slices_S3_o1_S1 : S3.Slices ![1] S1
  slices_S3_o2_S1 : S3.Slices ![2] S1
  shapeCasts_S125000x128_S16000000 : S125000x128.ShapeCasts S16000000
  bcast_S_S4000000 : S_.BroadcastsInDim S4000000 (![] : Fin 0 → Fin S4000000.rank)
  gather_S4000000_S16000000x1_S16000000_n_0_n_n_0_1_1_wf : GatherDims.WF S4000000 S16000000x1 S16000000 [] [0] [] [0] [] 1 ![1]
  scatter_S4000000_S16000000x1_S16000000_n_0_0_1_wf : ScatterDims.WF S4000000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S524288.size a ≤ S4194304.size a
  hwx0_0 : ∀ i : grid0.Coords, EltTy.bits .f32 = 32 ∨ (Rect.block (s := S4194304) S524288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S524288.size a ≤ S4194304.size a
  hwx0_1 : ∀ i : grid0.Coords, EltTy.bits .i32 = 32 ∨ (Rect.block (s := S4194304) S524288.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S524288.size a ≤ S4194304.size a
  hwx0_2 : ∀ i : grid0.Coords, EltTy.bits .f32 = 32 ∨ (Rect.block (s := S4194304) S524288.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S524288.size a ≤ S4194304.size a
  hwx0_3 : ∀ i : grid0.Coords, EltTy.bits .f32 = 32 ∨ (Rect.block (s := S4194304) S524288.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S125000x128.size a
  hwx1_0 : ∀ i : grid1.Coords, EltTy.bits .f32 = 32 ∨ (Rect.block (s := S125000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S125000x128.size a
  hwx1_1 : ∀ i : grid1.Coords, EltTy.bits .f32 = 32 ∨ (Rect.block (s := S125000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S125000x128.size a
  hwx1_2 : ∀ i : grid1.Coords, EltTy.bits .f32 = 32 ∨ (Rect.block (s := S125000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S125000x128.size a
  hwx1_3 : ∀ i : grid1.Coords, EltTy.bits .f32 = 32 ∨ (Rect.block (s := S125000x128) S1000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S125000x128.size a
  hwx1_4 : ∀ i : grid1.Coords, EltTy.bits .f32 = 32 ∨ (Rect.block (s := S125000x128) S1000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S125000x128.size a
  hwx1_5 : ∀ i : grid1.Coords, EltTy.bits .f32 = 32 ∨ (Rect.block (s := S125000x128) S1000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x16.size a ≤ S3x16.size a
  hwx1_6 : ∀ i : grid1.Coords, EltTy.bits .f32 = 32 ∨ (Rect.block (s := S3x16) S3x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x3.size a ≤ S16x3.size a
  hwx1_8 : ∀ i : grid1.Coords, EltTy.bits .f32 = 32 ∨ (Rect.block (s := S16x3) S16x3.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S3.size a ≤ S3.size a
  hwx1_9 : ∀ i : grid1.Coords, EltTy.bits .f32 = 32 ∨ (Rect.block (s := S3) S3.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1000x128.size a ≤ S125000x128.size a
  hwx1_10 : ∀ i : grid1.Coords, EltTy.bits .f32 = 32 ∨ (Rect.block (s := S125000x128) S1000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x128.size a ≤ S125000x128.size a
  hwx1_11 : ∀ i : grid1.Coords, EltTy.bits .f32 = 32 ∨ (Rect.block (s := S125000x128) S1000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1000x128.size a ≤ S125000x128.size a
  hwx1_12 : ∀ i : grid1.Coords, EltTy.bits .f32 = 32 ∨ (Rect.block (s := S125000x128) S1000x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1000x128.size a ≤ S125000x128.size a
  hwx1_13 : ∀ i : grid1.Coords, EltTy.bits .f32 = 32 ∨ (Rect.block (s := S125000x128) S1000x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1000x128.size a ≤ S125000x128.size a
  hwx1_14 : ∀ i : grid1.Coords, EltTy.bits .f32 = 32 ∨ (Rect.block (s := S125000x128) S1000x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1000x128.size a ≤ S125000x128.size a
  hwx1_15 : ∀ i : grid1.Coords, EltTy.bits .f32 = 32 ∨ (Rect.block (s := S125000x128) S1000x128.size (cc1_transform_15 i) (hinb1_15 i)).WholeWords (EltTy.packing .f32)

variable [Facts₀]

def gather_S4000000_S16000000x1_S16000000_n_0_n_n_0_1_1 : GatherDims S4000000 S16000000x1 S16000000 where
  offsetDims := []
  collapsedSliceDims := [0]
  operandBatchingDims := []
  startIndicesBatchingDims := []
  startIndexMap := [0]
  indexVectorDim := 1
  sliceSizes := ![1]
  wf := gather_S4000000_S16000000x1_S16000000_n_0_n_n_0_1_1_wf
def scatter_S4000000_S16000000x1_S16000000_n_0_0_1 : ScatterDims S4000000 S16000000x1 S16000000 where
  updateWindowDims := []
  insertedWindowDims := [0]
  scatterDimsToOperandDims := [0]
  indexVectorDim := 1
  wf := scatter_S4000000_S16000000x1_S16000000_n_0_0_1_wf

abbrev win0_0 : Pipeline.Window sig grid0 :=
  Pipeline.Window.ofSpec (Memref.whole main_v0) S524288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S524288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S524288.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S524288.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S3x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S16x3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg7) S3.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v32_0) S1000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v32_1) S1000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v32_2) S1000x128.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v32_3) S1000x128.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v32_4) S1000x128.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v32_5) S1000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S4000000 : Shape := ⟨1, ![4000000]⟩
abbrev S16000000 : Shape := ⟨1, ![16000000]⟩
abbrev S3x16 : Shape := ⟨2, ![3, 16]⟩
abbrev S16 : Shape := ⟨1, ![16]⟩
abbrev S16x3 : Shape := ⟨2, ![16, 3]⟩
abbrev S3 : Shape := ⟨1, ![3]⟩
abbrev S_ : Shape := ⟨0, ![]⟩
abbrev S16000000x1 : Shape := ⟨2, ![16000000, 1]⟩
abbrev S16000000x3 : Shape := ⟨2, ![16000000, 3]⟩
abbrev S16000000x16 : Shape := ⟨2, ![16000000, 16]⟩
abbrev S1x16 : Shape := ⟨2, ![1, 16]⟩
abbrev S1x3 : Shape := ⟨2, ![1, 3]⟩

abbrev nBuf : Space → Nat
  | .hbm => 104
  | .vmem => 0
  | .smem => 0
  | _ => 0

abbrev bufTy : (tb : Table) → Fin (tcTables nBuf tb) → BufTy
  | .hbm, ⟨0, _⟩ => ⟨S4000000, .f32⟩
  | .hbm, ⟨1, _⟩ => ⟨S16000000, .f32⟩
  | .hbm, ⟨2, _⟩ => ⟨S16000000, .f32⟩
  | .hbm, ⟨3, _⟩ => ⟨S16000000, .f32⟩
  | .hbm, ⟨4, _⟩ => ⟨S3x16, .f32⟩
  | .hbm, ⟨5, _⟩ => ⟨S16, .f32⟩
  | .hbm, ⟨6, _⟩ => ⟨S16x3, .f32⟩
  | .hbm, ⟨7, _⟩ => ⟨S3, .f32⟩
  | .hbm, ⟨8, _⟩ => ⟨S4000000, .i32⟩
  | .hbm, ⟨9, _⟩ => ⟨S16000000, .i32⟩
  | .hbm, ⟨10, _⟩ => ⟨S16000000, .i32⟩
  | .hbm, ⟨11, _⟩ => ⟨S16000000, .i32⟩
  | .hbm, ⟨12, _⟩ => ⟨S4000000, .f32⟩
  | .hbm, ⟨13, _⟩ => ⟨S_, .f32⟩
  | .hbm, ⟨14, _⟩ => ⟨S4000000, .f32⟩
  | .hbm, ⟨15, _⟩ => ⟨S4000000, .f32⟩
  | .hbm, ⟨16, _⟩ => ⟨S4000000, .f32⟩
  | .hbm, ⟨17, _⟩ => ⟨S_, .i32⟩
  | .hbm, ⟨18, _⟩ => ⟨S16000000, .i32⟩
  | .hbm, ⟨19, _⟩ => ⟨S16000000, .i1⟩
  | .hbm, ⟨20, _⟩ => ⟨S_, .i32⟩
  | .hbm, ⟨21, _⟩ => ⟨S16000000, .i32⟩
  | .hbm, ⟨22, _⟩ => ⟨S16000000, .i32⟩
  | .hbm, ⟨23, _⟩ => ⟨S16000000, .i32⟩
  | .hbm, ⟨24, _⟩ => ⟨S16000000x1, .i32⟩
  | .hbm, ⟨25, _⟩ => ⟨S16000000, .f32⟩
  | .hbm, ⟨26, _⟩ => ⟨S16000000, .f32⟩
  | .hbm, ⟨27, _⟩ => ⟨S_, .i32⟩
  | .hbm, ⟨28, _⟩ => ⟨S16000000, .i32⟩
  | .hbm, ⟨29, _⟩ => ⟨S16000000, .i1⟩
  | .hbm, ⟨30, _⟩ => ⟨S_, .i32⟩
  | .hbm, ⟨31, _⟩ => ⟨S16000000, .i32⟩
  | .hbm, ⟨32, _⟩ => ⟨S16000000, .i32⟩
  | .hbm, ⟨33, _⟩ => ⟨S16000000, .i32⟩
  | .hbm, ⟨34, _⟩ => ⟨S16000000x1, .i32⟩
  | .hbm, ⟨35, _⟩ => ⟨S16000000, .f32⟩
  | .hbm, ⟨36, _⟩ => ⟨S16000000, .f32⟩
  | .hbm, ⟨37, _⟩ => ⟨S_, .i32⟩
  | .hbm, ⟨38, _⟩ => ⟨S16000000, .i32⟩
  | .hbm, ⟨39, _⟩ => ⟨S16000000, .i1⟩
  | .hbm, ⟨40, _⟩ => ⟨S_, .i32⟩
  | .hbm, ⟨41, _⟩ => ⟨S16000000, .i32⟩
  | .hbm, ⟨42, _⟩ => ⟨S16000000, .i32⟩
  | .hbm, ⟨43, _⟩ => ⟨S16000000, .i32⟩
  | .hbm, ⟨44, _⟩ => ⟨S16000000x1, .i32⟩
  | .hbm, ⟨45, _⟩ => ⟨S16000000, .f32⟩
  | .hbm, ⟨46, _⟩ => ⟨S16000000, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .f32⟩
  | .hbm, ⟨51, _⟩ => ⟨S4000000, .f32⟩
  | .hbm, ⟨52, _⟩ => ⟨S4000000, .f32⟩
  | .hbm, ⟨53, _⟩ => ⟨S16000000x1, .f32⟩
  | .hbm, ⟨54, _⟩ => ⟨S16000000x1, .f32⟩
  | .hbm, ⟨55, _⟩ => ⟨S16000000x1, .f32⟩
  | .hbm, ⟨56, _⟩ => ⟨S16000000x3, .f32⟩
  | .hbm, ⟨57, _⟩ => ⟨S16000000x16, .f32⟩
  | .hbm, ⟨58, _⟩ => ⟨S1x16, .f32⟩
  | .hbm, ⟨59, _⟩ => ⟨S16000000x16, .f32⟩
  | .hbm, ⟨60, _⟩ => ⟨S16000000x16, .f32⟩
  | .hbm, ⟨61, _⟩ => ⟨S_, .f32⟩
  | .hbm, ⟨62, _⟩ => ⟨S16000000x16, .f32⟩
  | .hbm, ⟨63, _⟩ => ⟨S16000000x16, .f32⟩
  | .hbm, ⟨64, _⟩ => ⟨S16000000x3, .f32⟩
  | .hbm, ⟨65, _⟩ => ⟨S1x3, .f32⟩
  | .hbm, ⟨66, _⟩ => ⟨S16000000x3, .f32⟩
  | .hbm, ⟨67, _⟩ => ⟨S16000000x3, .f32⟩
  | .hbm, ⟨68, _⟩ => ⟨S_, .f32⟩
  | .hbm, ⟨69, _⟩ => ⟨S4000000, .f32⟩
  | .hbm, ⟨70, _⟩ => ⟨S16000000x1, .f32⟩
  | .hbm, ⟨71, _⟩ => ⟨S16000000, .f32⟩
  | .hbm, ⟨72, _⟩ => ⟨S_, .i32⟩
  | .hbm, ⟨73, _⟩ => ⟨S16000000, .i32⟩
  | .hbm, ⟨74, _⟩ => ⟨S16000000, .i1⟩
  | .hbm, ⟨75, _⟩ => ⟨S_, .i32⟩
  | .hbm, ⟨76, _⟩ => ⟨S16000000, .i32⟩
  | .hbm, ⟨77, _⟩ => ⟨S16000000, .i32⟩
  | .hbm, ⟨78, _⟩ => ⟨S16000000, .i32⟩
  | .hbm, ⟨79, _⟩ => ⟨S16000000x1, .i32⟩
  | .hbm, ⟨80, _⟩ => ⟨S4000000, .f32⟩
  | .hbm, ⟨81, _⟩ => ⟨S16000000x1, .f32⟩
  | .hbm, ⟨82, _⟩ => ⟨S16000000, .f32⟩
  | .hbm, ⟨83, _⟩ => ⟨S_, .i32⟩
  | .hbm, ⟨84, _⟩ => ⟨S16000000, .i32⟩
  | .hbm, ⟨85, _⟩ => ⟨S16000000, .i1⟩
  | .hbm, ⟨86, _⟩ => ⟨S_, .i32⟩
  | .hbm, ⟨87, _⟩ => ⟨S16000000, .i32⟩
  | .hbm, ⟨88, _⟩ => ⟨S16000000, .i32⟩
  | .hbm, ⟨89, _⟩ => ⟨S16000000, .i32⟩
  | .hbm, ⟨90, _⟩ => ⟨S16000000x1, .i32⟩
  | .hbm, ⟨91, _⟩ => ⟨S4000000, .f32⟩
  | .hbm, ⟨92, _⟩ => ⟨S16000000x1, .f32⟩
  | .hbm, ⟨93, _⟩ => ⟨S16000000, .f32⟩
  | .hbm, ⟨94, _⟩ => ⟨S_, .i32⟩
  | .hbm, ⟨95, _⟩ => ⟨S16000000, .i32⟩
  | .hbm, ⟨96, _⟩ => ⟨S16000000, .i1⟩
  | .hbm, ⟨97, _⟩ => ⟨S_, .i32⟩
  | .hbm, ⟨98, _⟩ => ⟨S16000000, .i32⟩
  | .hbm, ⟨99, _⟩ => ⟨S16000000, .i32⟩
  | .hbm, ⟨100, _⟩ => ⟨S16000000, .i32⟩
  | .hbm, ⟨101, _⟩ => ⟨S16000000x1, .i32⟩
  | .hbm, ⟨102, _⟩ => ⟨S4000000, .f32⟩
  | .hbm, ⟨103, _⟩ => ⟨S4000000, .f32⟩
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x1_S16000000x1_S16000000x1_S16000000x3_d1 : Shape.Concatenates [S16000000x1, S16000000x1, S16000000x1] S16000000x3 1
  bcast_S16_S1x16_1 : S16.BroadcastsInDim S1x16 (![1] : Fin 1 → Fin S1x16.rank)
  bcast_S1x16_S16000000x16_0_1 : S1x16.BroadcastsInDim S16000000x16 (![0, 1] : Fin 2 → Fin S16000000x16.rank)
  bcast_S_S16000000x16 : S_.BroadcastsInDim S16000000x16 (![] : Fin 0 → Fin S16000000x16.rank)
  bcast_S3_S1x3_1 : S3.BroadcastsInDim S1x3 (![1] : Fin 1 → Fin S1x3.rank)
  bcast_S1x3_S16000000x3_0_1 : S1x3.BroadcastsInDim S16000000x3 (![0, 1] : Fin 2 → Fin S16000000x3.rank)
  slices_S16000000x3_S16000000x1_0_0 : S16000000x3.Slices ![0, 0] S16000000x1
  shapeCasts_S16000000x1_S16000000 : S16000000x1.ShapeCasts S16000000
  slices_S16000000x3_S16000000x1_0_1 : S16000000x3.Slices ![0, 1] S16000000x1
  slices_S16000000x3_S16000000x1_0_2 : S16000000x3.Slices ![0, 2] S16000000x1
  gather_S4000000_S16000000x1_S16000000_n_0_n_n_0_1_1_wf : GatherDims.WF S4000000 S16000000x1 S16000000 [] [0] [] [0] [] 1 ![1]
  dot_S16000000x3_S3x16_S16000000x16_1_0_0_1_n_n_wf : DotDims.WF S16000000x3 S3x16 S16000000x16 [1] [0] [0] [1] [] []
  dot_S16000000x16_S16x3_S16000000x3_1_0_0_1_n_n_wf : DotDims.WF S16000000x16 S16x3 S16000000x3 [1] [0] [0] [1] [] []
  scatter_S4000000_S16000000x1_S16000000_n_0_0_1_wf : ScatterDims.WF S4000000 S16000000x1 S16000000 [] [0] [0] 1

variable [Facts₀]

def gather_S4000000_S16000000x1_S16000000_n_0_n_n_0_1_1 : GatherDims S4000000 S16000000x1 S16000000 where
  offsetDims := []
  collapsedSliceDims := [0]
  operandBatchingDims := []
  startIndicesBatchingDims := []
  startIndexMap := [0]
  indexVectorDim := 1
  sliceSizes := ![1]
  wf := gather_S4000000_S16000000x1_S16000000_n_0_n_n_0_1_1_wf
def dot_S16000000x3_S3x16_S16000000x16_1_0_0_1_n_n : DotDims S16000000x3 S3x16 S16000000x16 where
  lhsContracting := [1]
  rhsContracting := [0]
  lhsNonContracting := [0]
  rhsNonContracting := [1]
  lhsBatch := []
  rhsBatch := []
  wf := dot_S16000000x3_S3x16_S16000000x16_1_0_0_1_n_n_wf
def dot_S16000000x16_S16x3_S16000000x3_1_0_0_1_n_n : DotDims S16000000x16 S16x3 S16000000x3 where
  lhsContracting := [1]
  rhsContracting := [0]
  lhsNonContracting := [0]
  rhsNonContracting := [1]
  lhsBatch := []
  rhsBatch := []
  wf := dot_S16000000x16_S16x3_S16000000x3_1_0_0_1_n_n_wf
def scatter_S4000000_S16000000x1_S16000000_n_0_0_1 : ScatterDims S4000000 S16000000x1 S16000000 where
  updateWindowDims := []
  insertedWindowDims := [0]
  scatterDimsToOperandDims := [0]
  indexVectorDim := 1
  wf := scatter_S4000000_S16000000x1_S16000000_n_0_0_1_wf

class Facts : Prop extends Facts₀ where

variable [Facts]
-- ==== Proof.EdgePrep.lean ====
/-
  The first kernel (the per-edge preparation), read as two whole-array functions.

  The grid has 8 points; point `t` stages block `t` (524288 consecutive entries) of the padded cost array and of the
  padded counter array, and writes block `t` of both outputs. The body is pointwise, so block `t` of each output is the
  restriction to that block of one function of the whole input arrays: `cost / max (float counter) 1` for the first
  output, `if counter > 0 then 0 else cost` for the second. The 8 blocks tile the 4194304 entries, so after the region
  each output array IS that function.
-/
import proofs.«422504_j22411139350835_3_alg».proof.Proof.Gen.KernelIdeal.Frame
import Idealize.ShloMosaic.Lib.Pipeline.Value

set_option maxRecDepth 16384

noncomputable section

namespace Cert.KernelIdeal.EdgePrep

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem hz : (![0] : Fin 1 → Nat) = fun _ => 0 := funext fun a => by fin_cases a; rfl

/-- The scaled cost: the cost over the counter as a float, the divisor clamped below at one. -/
abbrev scaledOf (a0 : S4194304.Idx → Elt F .f32) (a1 : S4194304.Idx → Elt F .i32) : S4194304.Idx → Elt F .f32 :=
  divf a0 (maximumf (sitofp .f32 a1) (broadcast S4194304 (Scalar.ofBits .f32 0x3F800000#32)))

/-- The masked cost: zero where the counter is positive, the cost elsewhere. -/
abbrev maskedOf (a0 : S4194304.Idx → Elt F .f32) (a1 : S4194304.Idx → Elt F .i32) : S4194304.Idx → Elt F .f32 :=
  select (cmpi .sgt a1 (broadcast S4194304 (0#32 : BitVec 32))) (broadcast S4194304 (Scalar.ofBits .f32 0x00000000#32)) a0

/-- The body's first stored value: the casts to the same shape are the identity. -/
theorem pay_scaled (x0 : Vec F S524288 .f32) (x1 : Vec F S524288 .i32) :
    k0_pay3 x0 x1 = divf x0 (maximumf (sitofp .f32 x1) (broadcast S524288 (Scalar.ofBits .f32 0x3F800000#32))) := by
  unfold k0_pay3 k0_pay1 k0_pay2
  simp only [shapeCast_self]

/-- The body's second stored value. -/
theorem pay_masked (x0 : Vec F S524288 .f32) (x1 : Vec F S524288 .i32) :
    k0_pay4 x0 x1 = select (cmpi .sgt x1 (broadcast S524288 (0#32 : BitVec 32))) (broadcast S524288 (Scalar.ofBits .f32 0x00000000#32)) x0 := by
  unfold k0_pay4 k0_pay1 k0_pay2
  simp only [shapeCast_self]

/-- Every window of this region is at block `t` at point `t`. -/
theorem idx_facts : ∀ t : Fin cfg0.N, win0_0.index t (0 : Fin 1) = t.val ∧ win0_1.index t (0 : Fin 1) = t.val
    ∧ win0_2.index t (0 : Fin 1) = t.val ∧ win0_3.index t (0 : Fin 1) = t.val :=
  (by decide +kernel : ∀ t : Fin grid0.N, _)

/-- WHAT POINT `t` WRITES BACK to the first output is block `t` of the scaled cost of the arrays as the region finds them. -/
theorem flushed2_eq (c : Dev nD) (t : Fin cfg0.N) :
    (dat0 V c).flushed 2 t = ((cfg0.win 2).blk t).view.read (Elt F) (scaledOf (V c main_v0) (V c main_v1)) := by
  show (cfg0.win 2).cut (grid0.coords t) ((dat0 V c).after 2 t) = _
  rw [after0_2]
  unfold out0_2
  rw [View.canon_unit_zero hz]
  simp only [View.ld_unit_zero (S := S524288) hz]
  rw [pay_scaled]
  obtain ⟨e0, e1, e2, e3⟩ := idx_facts t
  funext j
  show FloatOps.divf (V c main_v0 (((cfg0.win 0).blk t).view.emb j)) (FloatOps.maximumf (FloatOps.sitofp .f32 (V c main_v1 (((cfg0.win 1).blk t).view.emb j))) (Scalar.ofBits .f32 0x3F800000#32))
    = FloatOps.divf (V c main_v0 (((cfg0.win 2).blk t).view.emb j)) (FloatOps.maximumf (FloatOps.sitofp .f32 (V c main_v1 (((cfg0.win 2).blk t).view.emb j))) (Scalar.ofBits .f32 0x3F800000#32))
  have h0 : ((cfg0.win 0).blk t).view.emb j = ((cfg0.win 2).blk t).view.emb j := by
    funext a; apply Fin.ext
    match a with
    | ⟨0, _⟩ => show win0_0.index t (0 : Fin 1) * 524288 + 1 * (j 0).val = win0_2.index t (0 : Fin 1) * 524288 + 1 * (j 0).val; omega
  have h1 : ((cfg0.win 1).blk t).view.emb j = ((cfg0.win 2).blk t).view.emb j := by
    funext a; apply Fin.ext
    match a with
    | ⟨0, _⟩ => show win0_1.index t (0 : Fin 1) * 524288 + 1 * (j 0).val = win0_2.index t (0 : Fin 1) * 524288 + 1 * (j 0).val; omega
  rw [h0, h1]

/-- WHAT POINT `t` WRITES BACK to the second output is block `t` of the masked cost. -/
theorem flushed3_eq (c : Dev nD) (t : Fin cfg0.N) :
    (dat0 V c).flushed 3 t = ((cfg0.win 3).blk t).view.read (Elt F) (maskedOf (V c main_v0) (V c main_v1)) := by
  show (cfg0.win 3).cut (grid0.coords t) ((dat0 V c).after 3 t) = _
  rw [after0_3]
  unfold out0_3
  rw [View.canon_unit_zero hz]
  simp only [View.ld_unit_zero (S := S524288) hz]
  rw [pay_masked]
  obtain ⟨e0, e1, e2, e3⟩ := idx_facts t
  funext j
  show Scalar.select (IntOp.cmpi .sgt (V c main_v1 (((cfg0.win 1).blk t).view.emb j)) (0#32 : BitVec 32)) (Scalar.ofBits .f32 0x00000000#32) (V c main_v0 (((cfg0.win 0).blk t).view.emb j))
    = Scalar.select (IntOp.cmpi .sgt (V c main_v1 (((cfg0.win 3).blk t).view.emb j)) (0#32 : BitVec 32)) (Scalar.ofBits .f32 0x00000000#32) (V c main_v0 (((cfg0.win 3).blk t).view.emb j))
  have h0 : ((cfg0.win 0).blk t).view.emb j = ((cfg0.win 3).blk t).view.emb j := by
    funext a; apply Fin.ext
    match a with
    | ⟨0, _⟩ => show win0_0.index t (0 : Fin 1) * 524288 + 1 * (j 0).val = win0_3.index t (0 : Fin 1) * 524288 + 1 * (j 0).val; omega
  have h1 : ((cfg0.win 1).blk t).view.emb j = ((cfg0.win 3).blk t).view.emb j := by
    funext a; apply Fin.ext
    match a with
    | ⟨0, _⟩ => show win0_1.index t (0 : Fin 1) * 524288 + 1 * (j 0).val = win0_3.index t (0 : Fin 1) * 524288 + 1 * (j 0).val; omega
  rw [h0, h1]

/-- An index of the first output array is in point `t`'s block iff it lies in the block's range. -/
theorem mem_blk2 (t : Fin cfg0.N) (i : S4194304.Idx) :
    i ∈ ((cfg0.win 2).blk t).view.set ↔ ∀ a : Fin 1, win0_2.index t a * S524288.size a ≤ (i a).val ∧ (i a).val < win0_2.index t a * S524288.size a + S524288.size a := by
  show i ∈ ((View.whole main_v2_0).slice (win0_2.rect t)).set ↔ _
  rw [View.set_slice_whole, Rect.mem_set_unit]
  exact Iff.rfl

theorem mem_blk3 (t : Fin cfg0.N) (i : S4194304.Idx) :
    i ∈ ((cfg0.win 3).blk t).view.set ↔ ∀ a : Fin 1, win0_3.index t a * S524288.size a ≤ (i a).val ∧ (i a).val < win0_3.index t a * S524288.size a + S524288.size a := by
  show i ∈ ((View.whole main_v2_1).slice (win0_3.rect t)).set ↔ _
  rw [View.set_slice_whole, Rect.mem_set_unit]
  exact Iff.rfl

/-- The point whose block holds entry `i`: `i / 524288`. -/
def pointOf (i : S4194304.Idx) : Fin cfg0.N :=
  ⟨(i 0).val / 524288, by have hi : (i 0).val < 4194304 := (i 0).isLt; show _ < grid0.N; rw [N_0]; omega⟩

/-- The eight blocks tile the first output array. -/
theorem cover2 (i : S4194304.Idx) : ∃ t : Fin cfg0.N, (cfg0.win 2).flush t = true ∧ i ∈ ((cfg0.win 2).blk t).view.set := by
  refine ⟨pointOf i, flush0_2 _, ?_⟩
  rw [mem_blk2]
  obtain ⟨e0, e1, e2, e3⟩ := idx_facts (pointOf i)
  have hp : (pointOf i).val = (i 0).val / 524288 := rfl
  intro a
  match a with
  | ⟨0, _⟩ => show win0_2.index (pointOf i) (0 : Fin 1) * 524288 ≤ (i 0).val ∧ (i 0).val < win0_2.index (pointOf i) (0 : Fin 1) * 524288 + 524288; omega

theorem cover3 (i : S4194304.Idx) : ∃ t : Fin cfg0.N, (cfg0.win 3).flush t = true ∧ i ∈ ((cfg0.win 3).blk t).view.set := by
  refine ⟨pointOf i, flush0_3 _, ?_⟩
  rw [mem_blk3]
  obtain ⟨e0, e1, e2, e3⟩ := idx_facts (pointOf i)
  have hp : (pointOf i).val = (i 0).val / 524288 := rfl
  intro a
  match a with
  | ⟨0, _⟩ => show win0_3.index (pointOf i) (0 : Fin 1) * 524288 ≤ (i 0).val ∧ (i 0).val < win0_3.index (pointOf i) (0 : Fin 1) * 524288 + 524288; omega

/-- After the region the first output array is the scaled cost of the two padded arrays as the region found them. -/
theorem scaled_arr (c : Dev nD) : (dat0 V c).arrAt 2 cfg0.N = scaledOf (V c main_v0) (V c main_v1) :=
  (dat0 V c).arrAt_eq_of_cover 2 (scaledOf (V c main_v0) (V c main_v1)) (fun t _ => flushed2_eq V c t) cover2

/-- After the region the second output array is the masked cost. -/
theorem masked_arr (c : Dev nD) : (dat0 V c).arrAt 3 cfg0.N = maskedOf (V c main_v0) (V c main_v1) :=
  (dat0 V c).arrAt_eq_of_cover 3 (maskedOf (V c main_v0) (V c main_v1)) (fun t _ => flushed3_eq V c t) cover3

end Cert.KernelIdeal.EdgePrep

end
-- ==== Proof.MlpSpec.lean ====
/-
  The per-triplet mathematics both programs compute, stated once over the weight arrays.

  For a triplet with the three updated costs `t0 t1 t2` (extended reals), hidden unit `h` of the 3 → 16 → 3 network is
  `max (t0·W1[0,h] + t1·W1[1,h] + t2·W1[2,h] + b1[h]) 0`, and output `j` is `(∑ h, hidden h · W2[h,j]) + b2[j]`.
  The kernel spells the sum over the sixteen hidden units as an accumulator started at zero and extended one unit at a
  time; `sum16` says that a sum over `Fin 16` in any commutative monoid is that left-nested fold, so no law of the
  extended reals beyond `0 + x` being a term of the fold is needed.
-/
import Idealize.ShloMosaic.PureOps.Ideal
import Idealize.ShloMosaic.PureOps.Ideal.Laws
import Idealize.ShloMosaic.Lib.ValueIdx
import Mathlib.Algebra.BigOperators.Fin

noncomputable section

namespace Cert.Mlp

open Idealize.ShloMosaic Idealize.ShloMosaic.ValueIdx

/-- A sum over sixteen indices is the fold that starts at zero and adds the terms in order, grouped to the left. -/
theorem sum16 {M : Type} [AddCommMonoid M] (f : Fin 16 → M) :
    ∑ h : Fin 16, f h = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

abbrev SW1 : Shape := ⟨2, ![3, 16]⟩
abbrev SB1 : Shape := ⟨1, ![16]⟩
abbrev SW2 : Shape := ⟨2, ![16, 3]⟩
abbrev SB2 : Shape := ⟨1, ![3]⟩

/-- Hidden unit `h` of a triplet whose three updated costs are `t0 t1 t2`: the affine form of the costs, clamped below at zero. -/
def hid (W1 : SW1.Idx → Ideal .f32) (b1 : SB1.Idx → Ideal .f32) (t0 t1 t2 : Ideal .f32) (h : Fin 16) : Ideal .f32 :=
  max (t0 * W1 (ix2 0 h) + t1 * W1 (ix2 1 h) + t2 * W1 (ix2 2 h) + b1 (ix1 h)) 0

/-- Output `j` of the network at a triplet: the hidden units weighted by column `j` of the second layer, plus its bias. -/
def delta (W1 : SW1.Idx → Ideal .f32) (b1 : SB1.Idx → Ideal .f32) (W2 : SW2.Idx → Ideal .f32) (b2 : SB2.Idx → Ideal .f32)
    (t0 t1 t2 : Ideal .f32) (j : Fin 3) : Ideal .f32 :=
  (∑ h : Fin 16, hid W1 b1 t0 t1 t2 h * W2 (ix2 h j)) + b2 (ix1 j)

/-- `delta` with the sum over the hidden units written as the zero-started fold. -/
theorem delta_fold (W1 : SW1.Idx → Ideal .f32) (b1 : SB1.Idx → Ideal .f32) (W2 : SW2.Idx → Ideal .f32) (b2 : SB2.Idx → Ideal .f32)
    (t0 t1 t2 : Ideal .f32) (j : Fin 3) :
    delta W1 b1 W2 b2 t0 t1 t2 j =
      (0 + hid W1 b1 t0 t1 t2 0 * W2 (ix2 0 j) + hid W1 b1 t0 t1 t2 1 * W2 (ix2 1 j) + hid W1 b1 t0 t1 t2 2 * W2 (ix2 2 j)
        + hid W1 b1 t0 t1 t2 3 * W2 (ix2 3 j) + hid W1 b1 t0 t1 t2 4 * W2 (ix2 4 j) + hid W1 b1 t0 t1 t2 5 * W2 (ix2 5 j)
        + hid W1 b1 t0 t1 t2 6 * W2 (ix2 6 j) + hid W1 b1 t0 t1 t2 7 * W2 (ix2 7 j) + hid W1 b1 t0 t1 t2 8 * W2 (ix2 8 j)
        + hid W1 b1 t0 t1 t2 9 * W2 (ix2 9 j) + hid W1 b1 t0 t1 t2 10 * W2 (ix2 10 j) + hid W1 b1 t0 t1 t2 11 * W2 (ix2 11 j)
        + hid W1 b1 t0 t1 t2 12 * W2 (ix2 12 j) + hid W1 b1 t0 t1 t2 13 * W2 (ix2 13 j) + hid W1 b1 t0 t1 t2 14 * W2 (ix2 14 j)
        + hid W1 b1 t0 t1 t2 15 * W2 (ix2 15 j)) + b2 (ix1 j) := by
  unfold delta
  rw [sum16]

end Cert.Mlp

end
-- ==== Proof.MlpBody.lean ====
/-
  The second kernel's body (three sums, then the 3 → 16 → 3 network unrolled over its sixteen hidden units), read at
  one entry of a block.

  The body is pointwise in the six cost blocks; the weights enter as scalars taken out of the weight blocks. At entry `y`
  the three stored sums are `x0 y + x3 y`, `x1 y + x4 y`, `x2 y + x5 y`, and stored output `j` is the network's output `j`
  at those three sums: the accumulator the body starts at zero and extends by one hidden unit at a time is the sum over
  the hidden units written as a left-nested fold.
-/
import proofs.«422504_j22411139350835_3_alg».proof.Proof.Gen.KernelIdeal.Frame
import proofs.«422504_j22411139350835_3_alg».proof.Proof.MlpSpec
import Idealize.ShloMosaic.Lib.Pipeline.Value
import Idealize.ShloMosaic.Lib.ValueIdx
import Idealize.ShloMosaic.PureOps.Ideal.Laws

set_option maxRecDepth 16384

noncomputable section

namespace Cert.KernelIdeal.MlpBody

open Idealize.ShloMosaic Idealize.ShloMosaic.TcCoe Idealize.ShloMosaic.ValueIdx Idealize.SL.Sem
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The scalar a body takes out of a matrix block at position `(k, h)` (a one-by-one slice, then its one entry). -/
theorem extract2 {A B : Nat} {α : Type} (x : (⟨2, ![A, B]⟩ : Shape).Idx → α) (k h : Nat)
    (hs : (⟨2, ![A, B]⟩ : Shape).Slices ![k, h] ⟨2, ![1, 1]⟩) (hp : ∀ a, (![0, 0] : Fin 2 → Nat) a < (⟨2, ![1, 1]⟩ : Shape).size a)
    (hk : k < A) (hh : h < B) :
    extractAt ![0, 0] (extractStridedSlice ⟨2, ![1, 1]⟩ ![k, h] x hs) hp = x (ix2 ⟨k, hk⟩ ⟨h, hh⟩) := by
  unfold extractAt extractStridedSlice
  exact congrArg x (funext fun a => Fin.ext (by match a with | ⟨0, _⟩ => rfl | ⟨1, _⟩ => rfl))

/-- The scalar a body takes out of a vector block at position `h`. -/
theorem extract1 {A : Nat} {α : Type} (x : (⟨1, ![A]⟩ : Shape).Idx → α) (h : Nat)
    (hs : (⟨1, ![A]⟩ : Shape).Slices ![h] ⟨1, ![1]⟩) (hp : ∀ a, (![0] : Fin 1 → Nat) a < (⟨1, ![1]⟩ : Shape).size a)
    (hh : h < A) :
    extractAt ![0] (extractStridedSlice ⟨1, ![1]⟩ ![h] x hs) hp = x (ix1 ⟨h, hh⟩) := by
  unfold extractAt extractStridedSlice
  exact congrArg x (funext fun a => Fin.ext (by match a with | ⟨0, _⟩ => rfl))

/-- The first stored sum at an entry. -/
theorem out10_apply (x0 x1 x2 x3 x4 x5 : Vec Ideal S1000x128 .f32) (x6 : Vec Ideal S3x16 .f32) (x7 : Vec Ideal S16 .f32) (x8 : Vec Ideal S16x3 .f32) (x9 : Vec Ideal S3 .f32) (y : S1000x128.Idx) : out1_10 x0 x1 x2 x3 x4 x5 x6 x7 x8 x9 y = x0 y + x3 y := by
  unfold out1_10
  rw [View.canon_unit_zero hz2]
  simp only [View.ld_unit_zero (S := S1000x128) hz2, View.ld_unit_zero (S := S3x16) hz2, View.ld_unit_zero (S := S16x3) hz2, View.ld_unit_zero (S := S16) hz1, View.ld_unit_zero (S := S3) hz1]
  simp only [k1_pay2, shapeCast_self, addf_apply]

/-- The second stored sum at an entry. -/
theorem out11_apply (x0 x1 x2 x3 x4 x5 : Vec Ideal S1000x128 .f32) (x6 : Vec Ideal S3x16 .f32) (x7 : Vec Ideal S16 .f32) (x8 : Vec Ideal S16x3 .f32) (x9 : Vec Ideal S3 .f32) (y : S1000x128.Idx) : out1_11 x0 x1 x2 x3 x4 x5 x6 x7 x8 x9 y = x1 y + x4 y := by
  unfold out1_11
  rw [View.canon_unit_zero hz2]
  simp only [View.ld_unit_zero (S := S1000x128) hz2, View.ld_unit_zero (S := S3x16) hz2, View.ld_unit_zero (S := S16x3) hz2, View.ld_unit_zero (S := S16) hz1, View.ld_unit_zero (S := S3) hz1]
  simp only [k1_pay3, shapeCast_self, addf_apply]

/-- The third stored sum at an entry. -/
theorem out12_apply (x0 x1 x2 x3 x4 x5 : Vec Ideal S1000x128 .f32) (x6 : Vec Ideal S3x16 .f32) (x7 : Vec Ideal S16 .f32) (x8 : Vec Ideal S16x3 .f32) (x9 : Vec Ideal S3 .f32) (y : S1000x128.Idx) : out1_12 x0 x1 x2 x3 x4 x5 x6 x7 x8 x9 y = x2 y + x5 y := by
  unfold out1_12
  rw [View.canon_unit_zero hz2]
  simp only [View.ld_unit_zero (S := S1000x128) hz2, View.ld_unit_zero (S := S3x16) hz2, View.ld_unit_zero (S := S16x3) hz2, View.ld_unit_zero (S := S16) hz1, View.ld_unit_zero (S := S3) hz1]
  simp only [k1_pay4, shapeCast_self, addf_apply]

set_option maxHeartbeats 4000000 in
/-- The first stored output at an entry is the network's output 0 at the entry's three sums. -/
theorem out13_apply (x0 x1 x2 x3 x4 x5 : Vec Ideal S1000x128 .f32) (x6 : Vec Ideal S3x16 .f32) (x7 : Vec Ideal S16 .f32) (x8 : Vec Ideal S16x3 .f32) (x9 : Vec Ideal S3 .f32) (y : S1000x128.Idx) :
    out1_13 x0 x1 x2 x3 x4 x5 x6 x7 x8 x9 y = Cert.Mlp.delta x6 x7 x8 x9 (x0 y + x3 y) (x1 y + x4 y) (x2 y + x5 y) 0 := by
  unfold out1_13
  rw [View.canon_unit_zero hz2]
  simp only [View.ld_unit_zero (S := S1000x128) hz2, View.ld_unit_zero (S := S3x16) hz2, View.ld_unit_zero (S := S16x3) hz2, View.ld_unit_zero (S := S16) hz1, View.ld_unit_zero (S := S3) hz1]
  rw [Cert.Mlp.delta_fold]
  simp (disch := decide) only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, shapeCast_self, Cert.Mlp.hid, addf_apply, mulf_apply, maximumf_apply, broadcast_apply,
    extract2, extract1, Ideal.ofBits_def, Ideal.ofBits_zero_f32]
  rfl

set_option maxHeartbeats 4000000 in
/-- The second stored output at an entry is the network's output 1. -/
theorem out14_apply (x0 x1 x2 x3 x4 x5 : Vec Ideal S1000x128 .f32) (x6 : Vec Ideal S3x16 .f32) (x7 : Vec Ideal S16 .f32) (x8 : Vec Ideal S16x3 .f32) (x9 : Vec Ideal S3 .f32) (y : S1000x128.Idx) :
    out1_14 x0 x1 x2 x3 x4 x5 x6 x7 x8 x9 y = Cert.Mlp.delta x6 x7 x8 x9 (x0 y + x3 y) (x1 y + x4 y) (x2 y + x5 y) 1 := by
  unfold out1_14
  rw [View.canon_unit_zero hz2]
  simp only [View.ld_unit_zero (S := S1000x128) hz2, View.ld_unit_zero (S := S3x16) hz2, View.ld_unit_zero (S := S16x3) hz2, View.ld_unit_zero (S := S16) hz1, View.ld_unit_zero (S := S3) hz1]
  rw [Cert.Mlp.delta_fold]
  simp (disch := decide) only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, shapeCast_self, Cert.Mlp.hid, addf_apply, mulf_apply, maximumf_apply, broadcast_apply,
    extract2, extract1, Ideal.ofBits_def, Ideal.ofBits_zero_f32]
  rfl

set_option maxHeartbeats 4000000 in
/-- The third stored output at an entry is the network's output 2. -/
theorem out15_apply (x0 x1 x2 x3 x4 x5 : Vec Ideal S1000x128 .f32) (x6 : Vec Ideal S3x16 .f32) (x7 : Vec Ideal S16 .f32) (x8 : Vec Ideal S16x3 .f32) (x9 : Vec Ideal S3 .f32) (y : S1000x128.Idx) :
    out1_15 x0 x1 x2 x3 x4 x5 x6 x7 x8 x9 y = Cert.Mlp.delta x6 x7 x8 x9 (x0 y + x3 y) (x1 y + x4 y) (x2 y + x5 y) 2 := by
  unfold out1_15
  rw [View.canon_unit_zero hz2]
  simp only [View.ld_unit_zero (S := S1000x128) hz2, View.ld_unit_zero (S := S3x16) hz2, View.ld_unit_zero (S := S16x3) hz2, View.ld_unit_zero (S := S16) hz1, View.ld_unit_zero (S := S3) hz1]
  rw [Cert.Mlp.delta_fold]
  simp (disch := decide) only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, shapeCast_self, Cert.Mlp.hid, addf_apply, mulf_apply, maximumf_apply, broadcast_apply,
    extract2, extract1, Ideal.ofBits_def, Ideal.ofBits_zero_f32]
  rfl

end Cert.KernelIdeal.MlpBody

end
-- ==== Proof.MlpBlocks.lean ====
/-
  The second kernel (three sums and the small network, per triplet), read as six whole-array functions.

  The grid has 125 points; point `t` stages rows `1000·t … 1000·t + 999` of each of the six cost arrays (125000 × 128) and
  the four weight arrays whole, and writes the same rows of each of the six outputs. The body is pointwise in the cost
  blocks, so each output's block at a point is the restriction to those rows of one function of the whole arrays:
  the three sums `a + s` and, for `j = 0, 1, 2`, the network's output `j` at the three sums. The 125 row blocks tile the
  arrays, so after the region each output array IS its function.
-/
import proofs.«422504_j22411139350835_3_alg».proof.Proof.Gen.KernelIdeal.Frame
import proofs.«422504_j22411139350835_3_alg».proof.Proof.MlpSpec
import proofs.«422504_j22411139350835_3_alg».proof.Proof.MlpBody
import Idealize.ShloMosaic.Lib.Pipeline.Value

set_option maxRecDepth 16384

noncomputable section

namespace Cert.KernelIdeal.MlpBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The three sums, entry by entry over the 125000 × 128 arrays. -/
abbrev cost0 (c : Dev nD) : S125000x128.Idx → Ideal .f32 := V c main_v26
abbrev cost1 (c : Dev nD) : S125000x128.Idx → Ideal .f32 := V c main_v27
abbrev cost2 (c : Dev nD) : S125000x128.Idx → Ideal .f32 := V c main_v28
abbrev scal0 (c : Dev nD) : S125000x128.Idx → Ideal .f32 := V c main_v29
abbrev scal1 (c : Dev nD) : S125000x128.Idx → Ideal .f32 := V c main_v30
abbrev scal2 (c : Dev nD) : S125000x128.Idx → Ideal .f32 := V c main_v31
abbrev sum0 (c : Dev nD) : S125000x128.Idx → Ideal .f32 := fun i => cost0 V c i + scal0 V c i
abbrev sum1 (c : Dev nD) : S125000x128.Idx → Ideal .f32 := fun i => cost1 V c i + scal1 V c i
abbrev sum2 (c : Dev nD) : S125000x128.Idx → Ideal .f32 := fun i => cost2 V c i + scal2 V c i

/-- The network's output `j`, entry by entry, at the three sums. -/
abbrev outj (c : Dev nD) (j : Fin 3) : S125000x128.Idx → Ideal .f32 := fun i =>
  Cert.Mlp.delta (V c main_arg4) (V c main_arg5) (V c main_arg6) (V c main_arg7) (sum0 V c i) (sum1 V c i) (sum2 V c i) j

/-- At point `t` each of the twelve cost windows (six inputs, six outputs) is at row block `t`, column block 0. -/
theorem idx_moving : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_10.index t (0 : Fin 2) = t.val ∧ win1_10.index t (1 : Fin 2) = 0)
    ∧ (win1_11.index t (0 : Fin 2) = t.val ∧ win1_11.index t (1 : Fin 2) = 0)
    ∧ (win1_12.index t (0 : Fin 2) = t.val ∧ win1_12.index t (1 : Fin 2) = 0)
    ∧ (win1_13.index t (0 : Fin 2) = t.val ∧ win1_13.index t (1 : Fin 2) = 0)
    ∧ (win1_14.index t (0 : Fin 2) = t.val ∧ win1_14.index t (1 : Fin 2) = 0)
    ∧ (win1_15.index t (0 : Fin 2) = t.val ∧ win1_15.index t (1 : Fin 2) = 0) :=
  (by decide +kernel : ∀ t : Fin grid1.N, _)

/-- The weight windows stay at block 0 on every axis. -/
theorem idx_w6 : ∀ t : Fin cfg1.N, win1_6.index t (0 : Fin 2) = 0 ∧ win1_6.index t (1 : Fin 2) = 0 := (by decide +kernel : ∀ t : Fin grid1.N, _)
theorem idx_w7 : ∀ t : Fin cfg1.N, win1_7.index t (0 : Fin 1) = 0 := (by decide +kernel : ∀ t : Fin grid1.N, _)
theorem idx_w8 : ∀ t : Fin cfg1.N, win1_8.index t (0 : Fin 2) = 0 ∧ win1_8.index t (1 : Fin 2) = 0 := (by decide +kernel : ∀ t : Fin grid1.N, _)
theorem idx_w9 : ∀ t : Fin cfg1.N, win1_9.index t (0 : Fin 1) = 0 := (by decide +kernel : ∀ t : Fin grid1.N, _)

/-- Where entry `j` of a cost block at point `t` sits in its array: row `1000·t + j₀`, column `j₁`. -/
def pos (t : Fin cfg1.N) (j : S1000x128.Idx) : S125000x128.Idx :=
  ix2 (⟨t.val * 1000 + (j 0).val, by
        have ht : t.val < grid1.N := t.isLt
        rw [N_1] at ht
        have hj : (j 0).val < 1000 := (j 0).isLt
        omega⟩ : Fin 125000) (⟨(j 1).val, (j 1).isLt⟩ : Fin 128)

theorem emb0 (t : Fin cfg1.N) (j : S1000x128.Idx) : ((cfg1.win 0).blk t).view.emb j = pos t j := by
  have e := (idx_moving t).1
  funext a; apply Fin.ext
  match a with
  | ⟨0, _⟩ => show win1_0.index t (0 : Fin 2) * 1000 + 1 * (j 0).val = t.val * 1000 + (j 0).val; omega
  | ⟨1, _⟩ => show win1_0.index t (1 : Fin 2) * 128 + 1 * (j 1).val = (j 1).val; omega

theorem emb1 (t : Fin cfg1.N) (j : S1000x128.Idx) : ((cfg1.win 1).blk t).view.emb j = pos t j := by
  have e := (idx_moving t).2.1
  funext a; apply Fin.ext
  match a with
  | ⟨0, _⟩ => show win1_1.index t (0 : Fin 2) * 1000 + 1 * (j 0).val = t.val * 1000 + (j 0).val; omega
  | ⟨1, _⟩ => show win1_1.index t (1 : Fin 2) * 128 + 1 * (j 1).val = (j 1).val; omega

theorem emb2 (t : Fin cfg1.N) (j : S1000x128.Idx) : ((cfg1.win 2).blk t).view.emb j = pos t j := by
  have e := (idx_moving t).2.2.1
  funext a; apply Fin.ext
  match a with
  | ⟨0, _⟩ => show win1_2.index t (0 : Fin 2) * 1000 + 1 * (j 0).val = t.val * 1000 + (j 0).val; omega
  | ⟨1, _⟩ => show win1_2.index t (1 : Fin 2) * 128 + 1 * (j 1).val = (j 1).val; omega

theorem emb3 (t : Fin cfg1.N) (j : S1000x128.Idx) : ((cfg1.win 3).blk t).view.emb j = pos t j := by
  have e := (idx_moving t).2.2.2.1
  funext a; apply Fin.ext
  match a with
  | ⟨0, _⟩ => show win1_3.index t (0 : Fin 2) * 1000 + 1 * (j 0).val = t.val * 1000 + (j 0).val; omega
  | ⟨1, _⟩ => show win1_3.index t (1 : Fin 2) * 128 + 1 * (j 1).val = (j 1).val; omega

theorem emb4 (t : Fin cfg1.N) (j : S1000x128.Idx) : ((cfg1.win 4).blk t).view.emb j = pos t j := by
  have e := (idx_moving t).2.2.2.2.1
  funext a; apply Fin.ext
  match a with
  | ⟨0, _⟩ => show win1_4.index t (0 : Fin 2) * 1000 + 1 * (j 0).val = t.val * 1000 + (j 0).val; omega
  | ⟨1, _⟩ => show win1_4.index t (1 : Fin 2) * 128 + 1 * (j 1).val = (j 1).val; omega

theorem emb5 (t : Fin cfg1.N) (j : S1000x128.Idx) : ((cfg1.win 5).blk t).view.emb j = pos t j := by
  have e := (idx_moving t).2.2.2.2.2.1
  funext a; apply Fin.ext
  match a with
  | ⟨0, _⟩ => show win1_5.index t (0 : Fin 2) * 1000 + 1 * (j 0).val = t.val * 1000 + (j 0).val; omega
  | ⟨1, _⟩ => show win1_5.index t (1 : Fin 2) * 128 + 1 * (j 1).val = (j 1).val; omega

theorem emb10 (t : Fin cfg1.N) (j : S1000x128.Idx) : ((cfg1.win 10).blk t).view.emb j = pos t j := by
  have e := (idx_moving t).2.2.2.2.2.2.1
  funext a; apply Fin.ext
  match a with
  | ⟨0, _⟩ => show win1_10.index t (0 : Fin 2) * 1000 + 1 * (j 0).val = t.val * 1000 + (j 0).val; omega
  | ⟨1, _⟩ => show win1_10.index t (1 : Fin 2) * 128 + 1 * (j 1).val = (j 1).val; omega

theorem emb11 (t : Fin cfg1.N) (j : S1000x128.Idx) : ((cfg1.win 11).blk t).view.emb j = pos t j := by
  have e := (idx_moving t).2.2.2.2.2.2.2.1
  funext a; apply Fin.ext
  match a with
  | ⟨0, _⟩ => show win1_11.index t (0 : Fin 2) * 1000 + 1 * (j 0).val = t.val * 1000 + (j 0).val; omega
  | ⟨1, _⟩ => show win1_11.index t (1 : Fin 2) * 128 + 1 * (j 1).val = (j 1).val; omega

theorem emb12 (t : Fin cfg1.N) (j : S1000x128.Idx) : ((cfg1.win 12).blk t).view.emb j = pos t j := by
  have e := (idx_moving t).2.2.2.2.2.2.2.2.1
  funext a; apply Fin.ext
  match a with
  | ⟨0, _⟩ => show win1_12.index t (0 : Fin 2) * 1000 + 1 * (j 0).val = t.val * 1000 + (j 0).val; omega
  | ⟨1, _⟩ => show win1_12.index t (1 : Fin 2) * 128 + 1 * (j 1).val = (j 1).val; omega

theorem emb13 (t : Fin cfg1.N) (j : S1000x128.Idx) : ((cfg1.win 13).blk t).view.emb j = pos t j := by
  have e := (idx_moving t).2.2.2.2.2.2.2.2.2.1
  funext a; apply Fin.ext
  match a with
  | ⟨0, _⟩ => show win1_13.index t (0 : Fin 2) * 1000 + 1 * (j 0).val = t.val * 1000 + (j 0).val; omega
  | ⟨1, _⟩ => show win1_13.index t (1 : Fin 2) * 128 + 1 * (j 1).val = (j 1).val; omega

theorem emb14 (t : Fin cfg1.N) (j : S1000x128.Idx) : ((cfg1.win 14).blk t).view.emb j = pos t j := by
  have e := (idx_moving t).2.2.2.2.2.2.2.2.2.2.1
  funext a; apply Fin.ext
  match a with
  | ⟨0, _⟩ => show win1_14.index t (0 : Fin 2) * 1000 + 1 * (j 0).val = t.val * 1000 + (j 0).val; omega
  | ⟨1, _⟩ => show win1_14.index t (1 : Fin 2) * 128 + 1 * (j 1).val = (j 1).val; omega

theorem emb15 (t : Fin cfg1.N) (j : S1000x128.Idx) : ((cfg1.win 15).blk t).view.emb j = pos t j := by
  have e := (idx_moving t).2.2.2.2.2.2.2.2.2.2.2
  funext a; apply Fin.ext
  match a with
  | ⟨0, _⟩ => show win1_15.index t (0 : Fin 2) * 1000 + 1 * (j 0).val = t.val * 1000 + (j 0).val; omega
  | ⟨1, _⟩ => show win1_15.index t (1 : Fin 2) * 128 + 1 * (j 1).val = (j 1).val; omega

theorem blk0 (c : Dev nD) (t : Fin cfg1.N) (j : S1000x128.Idx) : iblk1 V c 0 t j = V c main_v26 (pos t j) := by
  show V c main_v26 (((cfg1.win 0).blk t).view.emb j) = _
  rw [emb0]

theorem blk1 (c : Dev nD) (t : Fin cfg1.N) (j : S1000x128.Idx) : iblk1 V c 1 t j = V c main_v27 (pos t j) := by
  show V c main_v27 (((cfg1.win 1).blk t).view.emb j) = _
  rw [emb1]

theorem blk2 (c : Dev nD) (t : Fin cfg1.N) (j : S1000x128.Idx) : iblk1 V c 2 t j = V c main_v28 (pos t j) := by
  show V c main_v28 (((cfg1.win 2).blk t).view.emb j) = _
  rw [emb2]

theorem blk3 (c : Dev nD) (t : Fin cfg1.N) (j : S1000x128.Idx) : iblk1 V c 3 t j = V c main_v29 (pos t j) := by
  show V c main_v29 (((cfg1.win 3).blk t).view.emb j) = _
  rw [emb3]

theorem blk4 (c : Dev nD) (t : Fin cfg1.N) (j : S1000x128.Idx) : iblk1 V c 4 t j = V c main_v30 (pos t j) := by
  show V c main_v30 (((cfg1.win 4).blk t).view.emb j) = _
  rw [emb4]

theorem blk5 (c : Dev nD) (t : Fin cfg1.N) (j : S1000x128.Idx) : iblk1 V c 5 t j = V c main_v31 (pos t j) := by
  show V c main_v31 (((cfg1.win 5).blk t).view.emb j) = _
  rw [emb5]

/-- A weight window's block is the whole weight array. -/
theorem wblk6 (c : Dev nD) (t : Fin cfg1.N) : (iblk1 V c 6 t : S3x16.Idx → Ideal .f32) = V c main_arg4 := by
  obtain ⟨e0, e1⟩ := idx_w6 t
  funext y
  show V c main_arg4 (((cfg1.win 6).blk t).view.emb y) = _
  refine congrArg (V c main_arg4) (funext fun a => Fin.ext ?_)
  match a with
  | ⟨0, _⟩ => show win1_6.index t (0 : Fin 2) * S3x16.size 0 + 1 * (y 0).val = (y 0).val; rw [e0]; omega
  | ⟨1, _⟩ => show win1_6.index t (1 : Fin 2) * S3x16.size 1 + 1 * (y 1).val = (y 1).val; rw [e1]; omega

theorem wblk7 (c : Dev nD) (t : Fin cfg1.N) : (iblk1 V c 7 t : S16.Idx → Ideal .f32) = V c main_arg5 := by
  have e0 := idx_w7 t
  funext y
  show V c main_arg5 (((cfg1.win 7).blk t).view.emb y) = _
  refine congrArg (V c main_arg5) (funext fun a => Fin.ext ?_)
  match a with
  | ⟨0, _⟩ => show win1_7.index t (0 : Fin 1) * S16.size 0 + 1 * (y 0).val = (y 0).val; rw [e0]; omega

theorem wblk8 (c : Dev nD) (t : Fin cfg1.N) : (iblk1 V c 8 t : S16x3.Idx → Ideal .f32) = V c main_arg6 := by
  obtain ⟨e0, e1⟩ := idx_w8 t
  funext y
  show V c main_arg6 (((cfg1.win 8).blk t).view.emb y) = _
  refine congrArg (V c main_arg6) (funext fun a => Fin.ext ?_)
  match a with
  | ⟨0, _⟩ => show win1_8.index t (0 : Fin 2) * S16x3.size 0 + 1 * (y 0).val = (y 0).val; rw [e0]; omega
  | ⟨1, _⟩ => show win1_8.index t (1 : Fin 2) * S16x3.size 1 + 1 * (y 1).val = (y 1).val; rw [e1]; omega

theorem wblk9 (c : Dev nD) (t : Fin cfg1.N) : (iblk1 V c 9 t : S3.Idx → Ideal .f32) = V c main_arg7 := by
  have e0 := idx_w9 t
  funext y
  show V c main_arg7 (((cfg1.win 9).blk t).view.emb y) = _
  refine congrArg (V c main_arg7) (funext fun a => Fin.ext ?_)
  match a with
  | ⟨0, _⟩ => show win1_9.index t (0 : Fin 1) * S3.size 0 + 1 * (y 0).val = (y 0).val; rw [e0]; omega

/-- WHAT POINT `t` WRITES BACK through output window 10 is block `t` of the window's whole-array function. -/
theorem flushed10_eq (c : Dev nD) (t : Fin cfg1.N) :
    (dat1 V c).flushed 10 t = ((cfg1.win 10).blk t).view.read (Elt Ideal) (sum0 V c) := by
  show (cfg1.win 10).cut (grid1.coords t) ((dat1 V c).after 10 t) = _
  rw [after1_10]
  funext j
  refine (MlpBody.out10_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j).trans ?_
  show _ = (sum0 V c) (((cfg1.win 10).blk t).view.emb j)
  rw [blk0 V c t j, blk3 V c t j, emb10 t j]
  all_goals rfl

/-- WHAT POINT `t` WRITES BACK through output window 11 is block `t` of the window's whole-array function. -/
theorem flushed11_eq (c : Dev nD) (t : Fin cfg1.N) :
    (dat1 V c).flushed 11 t = ((cfg1.win 11).blk t).view.read (Elt Ideal) (sum1 V c) := by
  show (cfg1.win 11).cut (grid1.coords t) ((dat1 V c).after 11 t) = _
  rw [after1_11]
  funext j
  refine (MlpBody.out11_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j).trans ?_
  show _ = (sum1 V c) (((cfg1.win 11).blk t).view.emb j)
  rw [blk1 V c t j, blk4 V c t j, emb11 t j]
  all_goals rfl

/-- WHAT POINT `t` WRITES BACK through output window 12 is block `t` of the window's whole-array function. -/
theorem flushed12_eq (c : Dev nD) (t : Fin cfg1.N) :
    (dat1 V c).flushed 12 t = ((cfg1.win 12).blk t).view.read (Elt Ideal) (sum2 V c) := by
  show (cfg1.win 12).cut (grid1.coords t) ((dat1 V c).after 12 t) = _
  rw [after1_12]
  funext j
  refine (MlpBody.out12_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j).trans ?_
  show _ = (sum2 V c) (((cfg1.win 12).blk t).view.emb j)
  rw [blk2 V c t j, blk5 V c t j, emb12 t j]
  all_goals rfl

/-- WHAT POINT `t` WRITES BACK through output window 13 is block `t` of the window's whole-array function. -/
theorem flushed13_eq (c : Dev nD) (t : Fin cfg1.N) :
    (dat1 V c).flushed 13 t = ((cfg1.win 13).blk t).view.read (Elt Ideal) (outj V c 0) := by
  show (cfg1.win 13).cut (grid1.coords t) ((dat1 V c).after 13 t) = _
  rw [after1_13]
  funext j
  refine (MlpBody.out13_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j).trans ?_
  show _ = (outj V c 0) (((cfg1.win 13).blk t).view.emb j)
  rw [wblk6 V c t, wblk7 V c t, wblk8 V c t, wblk9 V c t, blk0 V c t j, blk1 V c t j, blk2 V c t j, blk3 V c t j, blk4 V c t j, blk5 V c t j, emb13 t j]
  all_goals rfl

/-- WHAT POINT `t` WRITES BACK through output window 14 is block `t` of the window's whole-array function. -/
theorem flushed14_eq (c : Dev nD) (t : Fin cfg1.N) :
    (dat1 V c).flushed 14 t = ((cfg1.win 14).blk t).view.read (Elt Ideal) (outj V c 1) := by
  show (cfg1.win 14).cut (grid1.coords t) ((dat1 V c).after 14 t) = _
  rw [after1_14]
  funext j
  refine (MlpBody.out14_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j).trans ?_
  show _ = (outj V c 1) (((cfg1.win 14).blk t).view.emb j)
  rw [wblk6 V c t, wblk7 V c t, wblk8 V c t, wblk9 V c t, blk0 V c t j, blk1 V c t j, blk2 V c t j, blk3 V c t j, blk4 V c t j, blk5 V c t j, emb14 t j]
  all_goals rfl

/-- WHAT POINT `t` WRITES BACK through output window 15 is block `t` of the window's whole-array function. -/
theorem flushed15_eq (c : Dev nD) (t : Fin cfg1.N) :
    (dat1 V c).flushed 15 t = ((cfg1.win 15).blk t).view.read (Elt Ideal) (outj V c 2) := by
  show (cfg1.win 15).cut (grid1.coords t) ((dat1 V c).after 15 t) = _
  rw [after1_15]
  funext j
  refine (MlpBody.out15_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j).trans ?_
  show _ = (outj V c 2) (((cfg1.win 15).blk t).view.emb j)
  rw [wblk6 V c t, wblk7 V c t, wblk8 V c t, wblk9 V c t, blk0 V c t j, blk1 V c t j, blk2 V c t j, blk3 V c t j, blk4 V c t j, blk5 V c t j, emb15 t j]
  all_goals rfl

theorem mem_blk10 (t : Fin cfg1.N) (i : S125000x128.Idx) :
    i ∈ ((cfg1.win 10).blk t).view.set ↔ ∀ a : Fin 2, win1_10.index t a * S1000x128.size a ≤ (i a).val ∧ (i a).val < win1_10.index t a * S1000x128.size a + S1000x128.size a := by
  show i ∈ ((View.whole main_v32_0).slice (win1_10.rect t)).set ↔ _
  rw [View.set_slice_whole, Rect.mem_set_unit]
  exact Iff.rfl

theorem mem_blk11 (t : Fin cfg1.N) (i : S125000x128.Idx) :
    i ∈ ((cfg1.win 11).blk t).view.set ↔ ∀ a : Fin 2, win1_11.index t a * S1000x128.size a ≤ (i a).val ∧ (i a).val < win1_11.index t a * S1000x128.size a + S1000x128.size a := by
  show i ∈ ((View.whole main_v32_1).slice (win1_11.rect t)).set ↔ _
  rw [View.set_slice_whole, Rect.mem_set_unit]
  exact Iff.rfl

theorem mem_blk12 (t : Fin cfg1.N) (i : S125000x128.Idx) :
    i ∈ ((cfg1.win 12).blk t).view.set ↔ ∀ a : Fin 2, win1_12.index t a * S1000x128.size a ≤ (i a).val ∧ (i a).val < win1_12.index t a * S1000x128.size a + S1000x128.size a := by
  show i ∈ ((View.whole main_v32_2).slice (win1_12.rect t)).set ↔ _
  rw [View.set_slice_whole, Rect.mem_set_unit]
  exact Iff.rfl

theorem mem_blk13 (t : Fin cfg1.N) (i : S125000x128.Idx) :
    i ∈ ((cfg1.win 13).blk t).view.set ↔ ∀ a : Fin 2, win1_13.index t a * S1000x128.size a ≤ (i a).val ∧ (i a).val < win1_13.index t a * S1000x128.size a + S1000x128.size a := by
  show i ∈ ((View.whole main_v32_3).slice (win1_13.rect t)).set ↔ _
  rw [View.set_slice_whole, Rect.mem_set_unit]
  exact Iff.rfl

theorem mem_blk14 (t : Fin cfg1.N) (i : S125000x128.Idx) :
    i ∈ ((cfg1.win 14).blk t).view.set ↔ ∀ a : Fin 2, win1_14.index t a * S1000x128.size a ≤ (i a).val ∧ (i a).val < win1_14.index t a * S1000x128.size a + S1000x128.size a := by
  show i ∈ ((View.whole main_v32_4).slice (win1_14.rect t)).set ↔ _
  rw [View.set_slice_whole, Rect.mem_set_unit]
  exact Iff.rfl

theorem mem_blk15 (t : Fin cfg1.N) (i : S125000x128.Idx) :
    i ∈ ((cfg1.win 15).blk t).view.set ↔ ∀ a : Fin 2, win1_15.index t a * S1000x128.size a ≤ (i a).val ∧ (i a).val < win1_15.index t a * S1000x128.size a + S1000x128.size a := by
  show i ∈ ((View.whole main_v32_5).slice (win1_15.rect t)).set ↔ _
  rw [View.set_slice_whole, Rect.mem_set_unit]
  exact Iff.rfl

/-- The point whose block holds row `i₀`: `i₀ / 1000`. -/
def pointOf (i : S125000x128.Idx) : Fin cfg1.N :=
  ⟨(i 0).val / 1000, by have hi : (i 0).val < 125000 := (i 0).isLt; show _ < grid1.N; rw [N_1]; omega⟩

theorem cover10 (i : S125000x128.Idx) : ∃ t : Fin cfg1.N, (cfg1.win 10).flush t = true ∧ i ∈ ((cfg1.win 10).blk t).view.set := by
  refine ⟨pointOf i, flush1_10 _, ?_⟩
  rw [mem_blk10]
  have e := (idx_moving (pointOf i)).2.2.2.2.2.2.1
  have hp : (pointOf i).val = (i 0).val / 1000 := rfl
  have h1 : (i 1).val < 128 := (i 1).isLt
  intro a
  match a with
  | ⟨0, _⟩ => show win1_10.index (pointOf i) (0 : Fin 2) * 1000 ≤ (i 0).val ∧ (i 0).val < win1_10.index (pointOf i) (0 : Fin 2) * 1000 + 1000; omega
  | ⟨1, _⟩ => show win1_10.index (pointOf i) (1 : Fin 2) * 128 ≤ (i 1).val ∧ (i 1).val < win1_10.index (pointOf i) (1 : Fin 2) * 128 + 128; omega

theorem cover11 (i : S125000x128.Idx) : ∃ t : Fin cfg1.N, (cfg1.win 11).flush t = true ∧ i ∈ ((cfg1.win 11).blk t).view.set := by
  refine ⟨pointOf i, flush1_11 _, ?_⟩
  rw [mem_blk11]
  have e := (idx_moving (pointOf i)).2.2.2.2.2.2.2.1
  have hp : (pointOf i).val = (i 0).val / 1000 := rfl
  have h1 : (i 1).val < 128 := (i 1).isLt
  intro a
  match a with
  | ⟨0, _⟩ => show win1_11.index (pointOf i) (0 : Fin 2) * 1000 ≤ (i 0).val ∧ (i 0).val < win1_11.index (pointOf i) (0 : Fin 2) * 1000 + 1000; omega
  | ⟨1, _⟩ => show win1_11.index (pointOf i) (1 : Fin 2) * 128 ≤ (i 1).val ∧ (i 1).val < win1_11.index (pointOf i) (1 : Fin 2) * 128 + 128; omega

theorem cover12 (i : S125000x128.Idx) : ∃ t : Fin cfg1.N, (cfg1.win 12).flush t = true ∧ i ∈ ((cfg1.win 12).blk t).view.set := by
  refine ⟨pointOf i, flush1_12 _, ?_⟩
  rw [mem_blk12]
  have e := (idx_moving (pointOf i)).2.2.2.2.2.2.2.2.1
  have hp : (pointOf i).val = (i 0).val / 1000 := rfl
  have h1 : (i 1).val < 128 := (i 1).isLt
  intro a
  match a with
  | ⟨0, _⟩ => show win1_12.index (pointOf i) (0 : Fin 2) * 1000 ≤ (i 0).val ∧ (i 0).val < win1_12.index (pointOf i) (0 : Fin 2) * 1000 + 1000; omega
  | ⟨1, _⟩ => show win1_12.index (pointOf i) (1 : Fin 2) * 128 ≤ (i 1).val ∧ (i 1).val < win1_12.index (pointOf i) (1 : Fin 2) * 128 + 128; omega

theorem cover13 (i : S125000x128.Idx) : ∃ t : Fin cfg1.N, (cfg1.win 13).flush t = true ∧ i ∈ ((cfg1.win 13).blk t).view.set := by
  refine ⟨pointOf i, flush1_13 _, ?_⟩
  rw [mem_blk13]
  have e := (idx_moving (pointOf i)).2.2.2.2.2.2.2.2.2.1
  have hp : (pointOf i).val = (i 0).val / 1000 := rfl
  have h1 : (i 1).val < 128 := (i 1).isLt
  intro a
  match a with
  | ⟨0, _⟩ => show win1_13.index (pointOf i) (0 : Fin 2) * 1000 ≤ (i 0).val ∧ (i 0).val < win1_13.index (pointOf i) (0 : Fin 2) * 1000 + 1000; omega
  | ⟨1, _⟩ => show win1_13.index (pointOf i) (1 : Fin 2) * 128 ≤ (i 1).val ∧ (i 1).val < win1_13.index (pointOf i) (1 : Fin 2) * 128 + 128; omega

theorem cover14 (i : S125000x128.Idx) : ∃ t : Fin cfg1.N, (cfg1.win 14).flush t = true ∧ i ∈ ((cfg1.win 14).blk t).view.set := by
  refine ⟨pointOf i, flush1_14 _, ?_⟩
  rw [mem_blk14]
  have e := (idx_moving (pointOf i)).2.2.2.2.2.2.2.2.2.2.1
  have hp : (pointOf i).val = (i 0).val / 1000 := rfl
  have h1 : (i 1).val < 128 := (i 1).isLt
  intro a
  match a with
  | ⟨0, _⟩ => show win1_14.index (pointOf i) (0 : Fin 2) * 1000 ≤ (i 0).val ∧ (i 0).val < win1_14.index (pointOf i) (0 : Fin 2) * 1000 + 1000; omega
  | ⟨1, _⟩ => show win1_14.index (pointOf i) (1 : Fin 2) * 128 ≤ (i 1).val ∧ (i 1).val < win1_14.index (pointOf i) (1 : Fin 2) * 128 + 128; omega

theorem cover15 (i : S125000x128.Idx) : ∃ t : Fin cfg1.N, (cfg1.win 15).flush t = true ∧ i ∈ ((cfg1.win 15).blk t).view.set := by
  refine ⟨pointOf i, flush1_15 _, ?_⟩
  rw [mem_blk15]
  have e := (idx_moving (pointOf i)).2.2.2.2.2.2.2.2.2.2.2
  have hp : (pointOf i).val = (i 0).val / 1000 := rfl
  have h1 : (i 1).val < 128 := (i 1).isLt
  intro a
  match a with
  | ⟨0, _⟩ => show win1_15.index (pointOf i) (0 : Fin 2) * 1000 ≤ (i 0).val ∧ (i 0).val < win1_15.index (pointOf i) (0 : Fin 2) * 1000 + 1000; omega
  | ⟨1, _⟩ => show win1_15.index (pointOf i) (1 : Fin 2) * 128 ≤ (i 1).val ∧ (i 1).val < win1_15.index (pointOf i) (1 : Fin 2) * 128 + 128; omega

/-- After the region, output array 0 is its whole-array function of the arrays as the region found them. -/
theorem arr10 (c : Dev nD) : (dat1 V c).arrAt 10 cfg1.N = sum0 V c :=
  (dat1 V c).arrAt_eq_of_cover 10 (sum0 V c) (fun t _ => flushed10_eq V c t) cover10

/-- After the region, output array 1 is its whole-array function of the arrays as the region found them. -/
theorem arr11 (c : Dev nD) : (dat1 V c).arrAt 11 cfg1.N = sum1 V c :=
  (dat1 V c).arrAt_eq_of_cover 11 (sum1 V c) (fun t _ => flushed11_eq V c t) cover11

/-- After the region, output array 2 is its whole-array function of the arrays as the region found them. -/
theorem arr12 (c : Dev nD) : (dat1 V c).arrAt 12 cfg1.N = sum2 V c :=
  (dat1 V c).arrAt_eq_of_cover 12 (sum2 V c) (fun t _ => flushed12_eq V c t) cover12

/-- After the region, output array 3 is its whole-array function of the arrays as the region found them. -/
theorem arr13 (c : Dev nD) : (dat1 V c).arrAt 13 cfg1.N = outj V c 0 :=
  (dat1 V c).arrAt_eq_of_cover 13 (outj V c 0) (fun t _ => flushed13_eq V c t) cover13

/-- After the region, output array 4 is its whole-array function of the arrays as the region found them. -/
theorem arr14 (c : Dev nD) : (dat1 V c).arrAt 14 cfg1.N = outj V c 1 :=
  (dat1 V c).arrAt_eq_of_cover 14 (outj V c 1) (fun t _ => flushed14_eq V c t) cover14

/-- After the region, output array 5 is its whole-array function of the arrays as the region found them. -/
theorem arr15 (c : Dev nD) : (dat1 V c).arrAt 15 cfg1.N = outj V c 2 :=
  (dat1 V c).arrAt_eq_of_cover 15 (outj V c 2) (fun t _ => flushed15_eq V c t) cover15

end Cert.KernelIdeal.MlpBlocks

end
-- ==== Proof.KernelHost.lean ====
/-
  The kernel program's host operations around its two regions, read back to the argument arrays.

  Before the first region the cost and counter arrays are padded with zeros to 4194304 entries. Between the regions
  the two outputs are cut back to their first 4000000 entries, the scaled cost is gathered at the three index
  arrays (a negative index first wrapped by adding the extent), and the six cost streams are re-laid as
  125000 × 128. After the second region the six outputs are re-laid flat, the three update vectors are
  scatter-added into zeros at the same wrapped indices, and the masked cost is added. No host operation and no region
  writes an argument array, so every read of one walks back to the launch contents.
-/
import proofs.«422504_j22411139350835_3_alg».proof.Proof.Gen.KernelIdeal.Frame
import Idealize.ShloMosaic.Lib.StableHlo.Run
import Idealize.ShloMosaic.PureOps.Ideal

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

/-- A buffer no operation of a stretch writes holds after the stretch what it held before. -/
macro "untouched " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## The argument arrays, read at the boundaries where the program reads them -/

theorem W5_main_arg1 : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := by untouched hostOps0_3
    _ = W2 m ρ c (Proc.devRef .tc main_arg1) := by untouched hostOps0_2
    _ = W1 m ρ c (Proc.devRef .tc main_arg1) := by untouched hostOps0_1
    _ = W0 m ρ c (Proc.devRef .tc main_arg1) := by untouched hostOps0
    _ = m ((c : Thread nD τ).loc main_arg1) := rfl

theorem W5_main_arg2 : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := by untouched hostOps0_3
    _ = W2 m ρ c (Proc.devRef .tc main_arg2) := by untouched hostOps0_2
    _ = W1 m ρ c (Proc.devRef .tc main_arg2) := by untouched hostOps0_1
    _ = W0 m ρ c (Proc.devRef .tc main_arg2) := by untouched hostOps0
    _ = m ((c : Thread nD τ).loc main_arg2) := rfl

theorem W5_main_arg3 : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := by untouched hostOps0_3
    _ = W2 m ρ c (Proc.devRef .tc main_arg3) := by untouched hostOps0_2
    _ = W1 m ρ c (Proc.devRef .tc main_arg3) := by untouched hostOps0_1
    _ = W0 m ρ c (Proc.devRef .tc main_arg3) := by untouched hostOps0
    _ = m ((c : Thread nD τ).loc main_arg3) := rfl

theorem W5_main_arg4 : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by untouched hostOps0_3
    _ = W2 m ρ c (Proc.devRef .tc main_arg4) := by untouched hostOps0_2
    _ = W1 m ρ c (Proc.devRef .tc main_arg4) := by untouched hostOps0_1
    _ = W0 m ρ c (Proc.devRef .tc main_arg4) := by untouched hostOps0
    _ = m ((c : Thread nD τ).loc main_arg4) := rfl

theorem W5_main_arg5 : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := by untouched hostOps0_3
    _ = W2 m ρ c (Proc.devRef .tc main_arg5) := by untouched hostOps0_2
    _ = W1 m ρ c (Proc.devRef .tc main_arg5) := by untouched hostOps0_1
    _ = W0 m ρ c (Proc.devRef .tc main_arg5) := by untouched hostOps0
    _ = m ((c : Thread nD τ).loc main_arg5) := rfl

theorem W5_main_arg6 : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := by untouched hostOps0_3
    _ = W2 m ρ c (Proc.devRef .tc main_arg6) := by untouched hostOps0_2
    _ = W1 m ρ c (Proc.devRef .tc main_arg6) := by untouched hostOps0_1
    _ = W0 m ρ c (Proc.devRef .tc main_arg6) := by untouched hostOps0
    _ = m ((c : Thread nD τ).loc main_arg6) := rfl

theorem W5_main_arg7 : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := by untouched hostOps0_3
    _ = W2 m ρ c (Proc.devRef .tc main_arg7) := by untouched hostOps0_2
    _ = W1 m ρ c (Proc.devRef .tc main_arg7) := by untouched hostOps0_1
    _ = W0 m ρ c (Proc.devRef .tc main_arg7) := by untouched hostOps0
    _ = m ((c : Thread nD τ).loc main_arg7) := rfl

theorem W5_main_arg9 : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by untouched hostOps0_3
    _ = W2 m ρ c (Proc.devRef .tc main_arg9) := by untouched hostOps0_2
    _ = W1 m ρ c (Proc.devRef .tc main_arg9) := by untouched hostOps0_1
    _ = W0 m ρ c (Proc.devRef .tc main_arg9) := by untouched hostOps0
    _ = m ((c : Thread nD τ).loc main_arg9) := rfl

theorem W5_main_arg10 : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by untouched hostOps0_3
    _ = W2 m ρ c (Proc.devRef .tc main_arg10) := by untouched hostOps0_2
    _ = W1 m ρ c (Proc.devRef .tc main_arg10) := by untouched hostOps0_1
    _ = W0 m ρ c (Proc.devRef .tc main_arg10) := by untouched hostOps0
    _ = m ((c : Thread nD τ).loc main_arg10) := rfl

theorem W5_main_arg11 : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := by untouched hostOps0_3
    _ = W2 m ρ c (Proc.devRef .tc main_arg11) := by untouched hostOps0_2
    _ = W1 m ρ c (Proc.devRef .tc main_arg11) := by untouched hostOps0_1
    _ = W0 m ρ c (Proc.devRef .tc main_arg11) := by untouched hostOps0
    _ = m ((c : Thread nD τ).loc main_arg11) := rfl

theorem W6_main_arg1 : W6 m ρ c (Proc.devRef .tc main_arg1) = m ((c : Thread nD τ).loc main_arg1) :=
  (by untouched hostOps1 : W6 m ρ c (Proc.devRef .tc main_arg1) = W5 m ρ c (Proc.devRef .tc main_arg1)).trans (W5_main_arg1 m ρ c)

theorem W6_main_arg2 : W6 m ρ c (Proc.devRef .tc main_arg2) = m ((c : Thread nD τ).loc main_arg2) :=
  (by untouched hostOps1 : W6 m ρ c (Proc.devRef .tc main_arg2) = W5 m ρ c (Proc.devRef .tc main_arg2)).trans (W5_main_arg2 m ρ c)

theorem W6_main_arg3 : W6 m ρ c (Proc.devRef .tc main_arg3) = m ((c : Thread nD τ).loc main_arg3) :=
  (by untouched hostOps1 : W6 m ρ c (Proc.devRef .tc main_arg3) = W5 m ρ c (Proc.devRef .tc main_arg3)).trans (W5_main_arg3 m ρ c)

theorem W6_main_arg4 : W6 m ρ c (Proc.devRef .tc main_arg4) = m ((c : Thread nD τ).loc main_arg4) :=
  (by untouched hostOps1 : W6 m ρ c (Proc.devRef .tc main_arg4) = W5 m ρ c (Proc.devRef .tc main_arg4)).trans (W5_main_arg4 m ρ c)

theorem W6_main_arg5 : W6 m ρ c (Proc.devRef .tc main_arg5) = m ((c : Thread nD τ).loc main_arg5) :=
  (by untouched hostOps1 : W6 m ρ c (Proc.devRef .tc main_arg5) = W5 m ρ c (Proc.devRef .tc main_arg5)).trans (W5_main_arg5 m ρ c)

theorem W6_main_arg6 : W6 m ρ c (Proc.devRef .tc main_arg6) = m ((c : Thread nD τ).loc main_arg6) :=
  (by untouched hostOps1 : W6 m ρ c (Proc.devRef .tc main_arg6) = W5 m ρ c (Proc.devRef .tc main_arg6)).trans (W5_main_arg6 m ρ c)

theorem W6_main_arg7 : W6 m ρ c (Proc.devRef .tc main_arg7) = m ((c : Thread nD τ).loc main_arg7) :=
  (by untouched hostOps1 : W6 m ρ c (Proc.devRef .tc main_arg7) = W5 m ρ c (Proc.devRef .tc main_arg7)).trans (W5_main_arg7 m ρ c)

theorem W6_main_arg9 : W6 m ρ c (Proc.devRef .tc main_arg9) = m ((c : Thread nD τ).loc main_arg9) :=
  (by untouched hostOps1 : W6 m ρ c (Proc.devRef .tc main_arg9) = W5 m ρ c (Proc.devRef .tc main_arg9)).trans (W5_main_arg9 m ρ c)

theorem W6_main_arg10 : W6 m ρ c (Proc.devRef .tc main_arg10) = m ((c : Thread nD τ).loc main_arg10) :=
  (by untouched hostOps1 : W6 m ρ c (Proc.devRef .tc main_arg10) = W5 m ρ c (Proc.devRef .tc main_arg10)).trans (W5_main_arg10 m ρ c)

theorem W6_main_arg11 : W6 m ρ c (Proc.devRef .tc main_arg11) = m ((c : Thread nD τ).loc main_arg11) :=
  (by untouched hostOps1 : W6 m ρ c (Proc.devRef .tc main_arg11) = W5 m ρ c (Proc.devRef .tc main_arg11)).trans (W5_main_arg11 m ρ c)

theorem W7_main_arg9 : W7 m ρ c (Proc.devRef .tc main_arg9) = m ((c : Thread nD τ).loc main_arg9) :=
  (W7_of_ne m ρ c main_arg9 (by decide)).trans (W6_main_arg9 m ρ c)

theorem W7_main_arg10 : W7 m ρ c (Proc.devRef .tc main_arg10) = m ((c : Thread nD τ).loc main_arg10) :=
  (W7_of_ne m ρ c main_arg10 (by decide)).trans (W6_main_arg10 m ρ c)

theorem W7_main_arg11 : W7 m ρ c (Proc.devRef .tc main_arg11) = m ((c : Thread nD τ).loc main_arg11) :=
  (W7_of_ne m ρ c main_arg11 (by decide)).trans (W6_main_arg11 m ρ c)

/-- The index chain in front of every gather and scatter: a negative index is wrapped by adding the extent 4000000,
    and the vector is laid as one column. -/
abbrev wrapIdx (x : S16000000.Idx → BitVec 32) : S16000000x1.Idx → BitVec 32 :=
  broadcastInDim S16000000x1 ![0] bcast_S16000000_S16000000x1_0
    (select (cmpi .slt x (broadcastInDim S16000000 ![] bcast_S_S16000000 (constantI S_ 32 0#32)))
      (addi x (broadcastInDim S16000000 ![] bcast_S_S16000000 (constantI S_ 32 4000000#32))) x)

/-! ## Before the first region -/

/-- The first region finds the cost array padded with (the float of the integer) zero. -/
theorem cost_padded : V4 m ρ c main_v0
    = pad S4194304 ![0] ![194304] ![0] (m ((c : Thread nD τ).loc main_arg0)) (sitofp (F := Ideal) .f32 (constantI S_ 32 0#32)) pads_S4000000_S4194304_01943040 h_S_ := by
  show StableHlo.after hostOps0_3 (StableHlo.after hostOps0_2 (StableHlo.after hostOps0_1 (StableHlo.after hostOps0 (W0 m ρ c)))) (Proc.devRef .tc main_v0) = _
  simp only [hostOps0_3, hostOps0_2, hostOps0_1, hostOps0]
  after_results
  rfl

/-- The first region finds the counter array padded with zero. -/
theorem cnt_padded : V4 m ρ c main_v1
    = pad S4194304 ![0] ![194304] ![0] (m ((c : Thread nD τ).loc main_arg8)) (constantI S_ 32 0#32) pads_S4000000_S4194304_01943040 h_S_ := by
  show StableHlo.after hostOps0_3 (StableHlo.after hostOps0_2 (StableHlo.after hostOps0_1 (StableHlo.after hostOps0 (W0 m ρ c)))) (Proc.devRef .tc main_v1) = _
  simp only [hostOps0_3, hostOps0_2, hostOps0_1, hostOps0]
  after_results
  rfl

/-! ## Between the regions -/

theorem relaid_cost0 : V6 m ρ c main_v26 = shapeCast S125000x128 (m ((c : Thread nD τ).loc main_arg1)) shapeCasts_S16000000_S125000x128 := by
  show StableHlo.after hostOps1 (W5 m ρ c) (Proc.devRef .tc main_v26) = _
  simp only [hostOps1]
  after_results
  rw [W5_main_arg1]
  rfl

theorem relaid_cost1 : V6 m ρ c main_v27 = shapeCast S125000x128 (m ((c : Thread nD τ).loc main_arg2)) shapeCasts_S16000000_S125000x128 := by
  show StableHlo.after hostOps1 (W5 m ρ c) (Proc.devRef .tc main_v27) = _
  simp only [hostOps1]
  after_results
  rw [W5_main_arg2]
  rfl

theorem relaid_cost2 : V6 m ρ c main_v28 = shapeCast S125000x128 (m ((c : Thread nD τ).loc main_arg3)) shapeCasts_S16000000_S125000x128 := by
  show StableHlo.after hostOps1 (W5 m ρ c) (Proc.devRef .tc main_v28) = _
  simp only [hostOps1]
  after_results
  rw [W5_main_arg3]
  rfl

/-- The scaled cost cut back to its 4000000 entries. -/
abbrev scaledCut : S4000000.Idx → Ideal .f32 :=
  extractStridedSlice S4000000 ![0] (W5 m ρ c (Proc.devRef .tc main_v2_0)) slices_S4194304_S4000000_0

set_option maxHeartbeats 1000000 in
theorem relaid_gather0 : V6 m ρ c main_v29 = shapeCast S125000x128
    (Host.gather gather_S4000000_S16000000x1_S16000000_n_0_n_n_0_1_1 (scaledCut m ρ c) (wrapIdx (m ((c : Thread nD τ).loc main_arg9)))) shapeCasts_S16000000_S125000x128 := by
  show StableHlo.after hostOps1 (W5 m ρ c) (Proc.devRef .tc main_v29) = _
  simp only [hostOps1]
  after_results_simp
  rw [W5_main_arg9]
  rfl

set_option maxHeartbeats 1000000 in
theorem relaid_gather1 : V6 m ρ c main_v30 = shapeCast S125000x128
    (Host.gather gather_S4000000_S16000000x1_S16000000_n_0_n_n_0_1_1 (scaledCut m ρ c) (wrapIdx (m ((c : Thread nD τ).loc main_arg10)))) shapeCasts_S16000000_S125000x128 := by
  show StableHlo.after hostOps1 (W5 m ρ c) (Proc.devRef .tc main_v30) = _
  simp only [hostOps1]
  after_results_simp
  rw [W5_main_arg10]
  rfl

set_option maxHeartbeats 1000000 in
theorem relaid_gather2 : V6 m ρ c main_v31 = shapeCast S125000x128
    (Host.gather gather_S4000000_S16000000x1_S16000000_n_0_n_n_0_1_1 (scaledCut m ρ c) (wrapIdx (m ((c : Thread nD τ).loc main_arg11)))) shapeCasts_S16000000_S125000x128 := by
  show StableHlo.after hostOps1 (W5 m ρ c) (Proc.devRef .tc main_v31) = _
  simp only [hostOps1]
  after_results_simp
  rw [W5_main_arg11]
  rfl

/-- The masked cost cut back to its 4000000 entries, as the last stretch reads it. -/
theorem masked_cut : W7 m ρ c (Proc.devRef .tc main_v4)
    = extractStridedSlice S4000000 ![0] (W5 m ρ c (Proc.devRef .tc main_v2_1)) slices_S4194304_S4000000_0 := by
  refine (W7_of_ne m ρ c main_v4 (by decide)).trans ?_
  show StableHlo.after hostOps1 (W5 m ρ c) (Proc.devRef .tc main_v4) = _
  simp only [hostOps1]
  after_results

/-! ## After the second region -/

theorem flat_out0 : W8 m ρ c (Proc.devRef .tc main_v33) = shapeCast S16000000 (W7 m ρ c (Proc.devRef .tc main_v32_0)) shapeCasts_S125000x128_S16000000 := by
  show StableHlo.after hostOps2 (W7 m ρ c) (Proc.devRef .tc main_v33) = _
  simp only [hostOps2]
  after_results
  rfl

theorem flat_out1 : W8 m ρ c (Proc.devRef .tc main_v34) = shapeCast S16000000 (W7 m ρ c (Proc.devRef .tc main_v32_1)) shapeCasts_S125000x128_S16000000 := by
  show StableHlo.after hostOps2 (W7 m ρ c) (Proc.devRef .tc main_v34) = _
  simp only [hostOps2]
  after_results
  rfl

theorem flat_out2 : W8 m ρ c (Proc.devRef .tc main_v35) = shapeCast S16000000 (W7 m ρ c (Proc.devRef .tc main_v32_2)) shapeCasts_S125000x128_S16000000 := by
  show StableHlo.after hostOps2 (W7 m ρ c) (Proc.devRef .tc main_v35) = _
  simp only [hostOps2]
  after_results
  rfl

/-- The edge result: the masked cost plus the three update vectors scatter-added into zeros, one after the other. -/
theorem edges_out : W8 m ρ c (Proc.devRef .tc main_v61)
    = addf (W7 m ρ c (Proc.devRef .tc main_v4))
        (Host.scatterAdd scatter_S4000000_S16000000x1_S16000000_n_0_0_1
          (Host.scatterAdd scatter_S4000000_S16000000x1_S16000000_n_0_0_1
            (Host.scatterAdd scatter_S4000000_S16000000x1_S16000000_n_0_0_1
              (broadcastInDim S4000000 ![] bcast_S_S4000000 (constant (F := Ideal) S_ .f32 0x00000000#32))
              (wrapIdx (m ((c : Thread nD τ).loc main_arg9)))
              (shapeCast S16000000 (W7 m ρ c (Proc.devRef .tc main_v32_3)) shapeCasts_S125000x128_S16000000))
            (wrapIdx (m ((c : Thread nD τ).loc main_arg10)))
            (shapeCast S16000000 (W7 m ρ c (Proc.devRef .tc main_v32_4)) shapeCasts_S125000x128_S16000000))
          (wrapIdx (m ((c : Thread nD τ).loc main_arg11)))
          (shapeCast S16000000 (W7 m ρ c (Proc.devRef .tc main_v32_5)) shapeCasts_S125000x128_S16000000)) := by
  show StableHlo.after hostOps2 (W7 m ρ c) (Proc.devRef .tc main_v61) = _
  simp only [hostOps2]
  after_results_simp
  rw [W7_main_arg9, W7_main_arg10, W7_main_arg11]
  rfl

end Cert.KernelIdeal.HostSide

end
-- ==== Proof.RefStages.lean ====
/-
  The reference's network, read at an index over the generated stage-by-stage lemmas.

  Row `r` of the concatenated 16000000 × 3 matrix holds the three updated costs of triplet `r`; entry `(r, h)` after the
  first product, the bias and the clamp is hidden unit `h` of that triplet (a product with a 3-row matrix is a sum of
  three terms); entry `(r, j)` after the second product and bias is output `j` (a sum over the sixteen hidden units);
  the three scattered update vectors are its three columns.
-/
import proofs.«422504_j22411139350835_3_alg».proof.Proof.Gen.ReferenceIdeal.Run
import proofs.«422504_j22411139350835_3_alg».proof.Proof.Gen.ReferenceIdeal.Read
import proofs.«422504_j22411139350835_3_alg».proof.Proof.MlpSpec
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Idealize.ShloMosaic Idealize.ShloMosaic.TcCoe Idealize.ShloMosaic.ValueIdx
open Cert.ReferenceIdeal Cert.ReferenceIdeal.Gen Cert.ReferenceIdeal.Read

variable (x0 : (⟨S4000000, .f32⟩ : BufTy).Contents (Elt Ideal)) (x1 x2 x3 : (⟨S16000000, .f32⟩ : BufTy).Contents (Elt Ideal))
  (x4 : (⟨S3x16, .f32⟩ : BufTy).Contents (Elt Ideal)) (x5 : (⟨S16, .f32⟩ : BufTy).Contents (Elt Ideal))
  (x6 : (⟨S16x3, .f32⟩ : BufTy).Contents (Elt Ideal)) (x7 : (⟨S3, .f32⟩ : BufTy).Contents (Elt Ideal))
  (x8 : (⟨S4000000, .i32⟩ : BufTy).Contents (Elt Ideal)) (x9 x10 x11 : (⟨S16000000, .i32⟩ : BufTy).Contents (Elt Ideal))

/-- The triplet a matrix entry belongs to: its row. -/
def row {n : Nat} (p : (⟨2, ![16000000, n]⟩ : Shape).Idx) : S16000000.Idx := ix1 (⟨(p 0).val, (p 0).isLt⟩ : Fin 16000000)

/-- The three one-column matrices the reference joins along axis 1. -/
abbrev pieces : List ((s : Shape) × (s.Idx → Ideal .f32)) :=
  [⟨S16000000x1, val_main_v31 (F := Ideal) x0 x1 x8 x9⟩, ⟨S16000000x1, val_main_v32 (F := Ideal) x0 x2 x8 x10⟩, ⟨S16000000x1, val_main_v33 (F := Ideal) x0 x3 x8 x11⟩]

/-- Column 0 of the concatenated matrix is the first updated cost. -/
theorem concat_col0 (p : S16000000x16.Idx) :
    val_main_v34 (F := Ideal) x0 x1 x2 x3 x8 x9 x10 x11 (lidx_main_v35 p 0) = val_main_v11 (F := Ideal) x0 x1 x8 x9 (row p) := by
  unfold val_main_v34
  refine (concatenate_apply_piece (t := S16000000x3) (1 : Fin 2) (pieces x0 x1 x2 x3 x8 x9 x10 x11) concatenates_S16000000x1_S16000000x1_S16000000x1_S16000000x3_d1 (lidx_main_v35 p 0) 0 (show 0 < 3 from by omega)
    S16000000x1 (val_main_v31 (F := Ideal) x0 x1 x8 x9) rfl rfl 0 rfl (ix2 (⟨(p 0).val, (p 0).isLt⟩ : Fin 16000000) (0 : Fin 1))
    (fun b hb => by match b, hb with | ⟨0, _⟩, _ => rfl | ⟨1, _⟩, hb => exact absurd rfl hb) rfl).trans ?_
  rw [val_main_v31_apply]
  exact congrArg _ (funext fun a => by match a with | ⟨0, _⟩ => rfl)

/-- Column 1 is the second updated cost. -/
theorem concat_col1 (p : S16000000x16.Idx) :
    val_main_v34 (F := Ideal) x0 x1 x2 x3 x8 x9 x10 x11 (lidx_main_v35 p 1) = val_main_v19 (F := Ideal) x0 x2 x8 x10 (row p) := by
  unfold val_main_v34
  refine (concatenate_apply_piece (t := S16000000x3) (1 : Fin 2) (pieces x0 x1 x2 x3 x8 x9 x10 x11) concatenates_S16000000x1_S16000000x1_S16000000x1_S16000000x3_d1 (lidx_main_v35 p 1) 1 (show 1 < 3 from by omega)
    S16000000x1 (val_main_v32 (F := Ideal) x0 x2 x8 x10) rfl rfl 1 rfl (ix2 (⟨(p 0).val, (p 0).isLt⟩ : Fin 16000000) (0 : Fin 1))
    (fun b hb => by match b, hb with | ⟨0, _⟩, _ => rfl | ⟨1, _⟩, hb => exact absurd rfl hb) rfl).trans ?_
  rw [val_main_v32_apply]
  exact congrArg _ (funext fun a => by match a with | ⟨0, _⟩ => rfl)

/-- Column 2 is the third updated cost. -/
theorem concat_col2 (p : S16000000x16.Idx) :
    val_main_v34 (F := Ideal) x0 x1 x2 x3 x8 x9 x10 x11 (lidx_main_v35 p 2) = val_main_v27 (F := Ideal) x0 x3 x8 x11 (row p) := by
  unfold val_main_v34
  refine (concatenate_apply_piece (t := S16000000x3) (1 : Fin 2) (pieces x0 x1 x2 x3 x8 x9 x10 x11) concatenates_S16000000x1_S16000000x1_S16000000x1_S16000000x3_d1 (lidx_main_v35 p 2) 2 (show 2 < 3 from by omega)
    S16000000x1 (val_main_v33 (F := Ideal) x0 x3 x8 x11) rfl rfl 2 rfl (ix2 (⟨(p 0).val, (p 0).isLt⟩ : Fin 16000000) (0 : Fin 1))
    (fun b hb => by match b, hb with | ⟨0, _⟩, _ => rfl | ⟨1, _⟩, hb => exact absurd rfl hb) rfl).trans ?_
  rw [val_main_v33_apply]
  exact congrArg _ (funext fun a => by match a with | ⟨0, _⟩ => rfl)

/-- An entry of the clamped hidden layer is the hidden unit of its column at the three updated costs of its row. -/
theorem hidden_apply (p : S16000000x16.Idx) :
    val_main_v39 (F := Ideal) x0 x1 x2 x3 x4 x5 x8 x9 x10 x11 p
      = Cert.Mlp.hid x4 x5 (val_main_v11 (F := Ideal) x0 x1 x8 x9 (row p)) (val_main_v19 (F := Ideal) x0 x2 x8 x10 (row p))
          (val_main_v27 (F := Ideal) x0 x3 x8 x11 (row p)) (⟨(p 1).val, (p 1).isLt⟩ : Fin 16) := by
  rw [val_main_v39_apply, val_main_v38_apply, val_main_v35_apply, val_main_v37_apply, val_main_v36_apply, val_main_call1_v0_apply,
    Fin.sum_univ_three, concat_col0, concat_col1, concat_col2]
  unfold Cert.Mlp.hid val_main_call1_cst
  simp only [Ideal.maximumf_def, Ideal.addf_def, constant_apply, Ideal.ofBits_zero_f32]
  have r0 : ridx_main_v35 p 0 = ix2 (0 : Fin 3) (⟨(p 1).val, (p 1).isLt⟩ : Fin 16) := funext fun a => by match a with | ⟨0, _⟩ => rfl | ⟨1, _⟩ => rfl
  have r1 : ridx_main_v35 p 1 = ix2 (1 : Fin 3) (⟨(p 1).val, (p 1).isLt⟩ : Fin 16) := funext fun a => by match a with | ⟨0, _⟩ => rfl | ⟨1, _⟩ => rfl
  have r2 : ridx_main_v35 p 2 = ix2 (2 : Fin 3) (⟨(p 1).val, (p 1).isLt⟩ : Fin 16) := funext fun a => by match a with | ⟨0, _⟩ => rfl | ⟨1, _⟩ => rfl
  have rb : idx_main_v36 (idx_main_v37 p) = ix1 (⟨(p 1).val, (p 1).isLt⟩ : Fin 16) := funext fun a => by match a with | ⟨0, _⟩ => rfl
  rw [r0, r1, r2, rb]

/-- An entry of the network's output matrix is output `j` of its column at the three updated costs of its row. -/
theorem output_apply (q : S16000000x3.Idx) :
    val_main_v43 (F := Ideal) x0 x1 x2 x3 x4 x5 x6 x7 x8 x9 x10 x11 q
      = Cert.Mlp.delta x4 x5 x6 x7 (val_main_v11 (F := Ideal) x0 x1 x8 x9 (row q)) (val_main_v19 (F := Ideal) x0 x2 x8 x10 (row q))
          (val_main_v27 (F := Ideal) x0 x3 x8 x11 (row q)) (⟨(q 1).val, (q 1).isLt⟩ : Fin 3) := by
  rw [val_main_v43_apply, val_main_v40_apply, val_main_v42_apply, val_main_v41_apply]
  unfold Cert.Mlp.delta
  simp only [Ideal.addf_def]
  have rb : idx_main_v41 (idx_main_v42 q) = ix1 (⟨(q 1).val, (q 1).isLt⟩ : Fin 3) := funext fun a => by match a with | ⟨0, _⟩ => rfl
  rw [rb]
  congr 1
  refine Finset.sum_congr rfl fun k _ => ?_
  rw [hidden_apply]
  have rk : ridx_main_v40 q k = ix2 k (⟨(q 1).val, (q 1).isLt⟩ : Fin 3) := funext fun a => by match a with | ⟨0, _⟩ => rfl | ⟨1, _⟩ => rfl
  rw [rk]
  rfl

/-- The first scattered update vector, entry by entry: output 0 of the network at the triplet's three updated costs. -/
theorem delta_col0 (i : S16000000.Idx) :
    val_main_v46 (F := Ideal) x0 x1 x2 x3 x4 x5 x6 x7 x8 x9 x10 x11 i
      = Cert.Mlp.delta x4 x5 x6 x7 (val_main_v11 (F := Ideal) x0 x1 x8 x9 i) (val_main_v19 (F := Ideal) x0 x2 x8 x10 i)
          (val_main_v27 (F := Ideal) x0 x3 x8 x11 i) 0 := by
  rw [val_main_v46_apply, val_main_v45_apply, output_apply]
  have hr : row (idx_main_v45 (idx_main_v46 i)) = i := funext fun a => by match a with | ⟨0, _⟩ => exact Fin.ext (Nat.div_one _)
  have hc : (⟨((idx_main_v45 (idx_main_v46 i)) 1).val, ((idx_main_v45 (idx_main_v46 i)) 1).isLt⟩ : Fin 3) = 0 := Fin.ext rfl
  rw [hr, hc]

/-- The second scattered update vector, entry by entry: output 1 of the network at the triplet's three updated costs. -/
theorem delta_col1 (i : S16000000.Idx) :
    val_main_v55 (F := Ideal) x0 x1 x2 x3 x4 x5 x6 x7 x8 x9 x10 x11 i
      = Cert.Mlp.delta x4 x5 x6 x7 (val_main_v11 (F := Ideal) x0 x1 x8 x9 i) (val_main_v19 (F := Ideal) x0 x2 x8 x10 i)
          (val_main_v27 (F := Ideal) x0 x3 x8 x11 i) 1 := by
  rw [val_main_v55_apply, val_main_v54_apply, output_apply]
  have hr : row (idx_main_v54 (idx_main_v55 i)) = i := funext fun a => by match a with | ⟨0, _⟩ => exact Fin.ext (Nat.div_one _)
  have hc : (⟨((idx_main_v54 (idx_main_v55 i)) 1).val, ((idx_main_v54 (idx_main_v55 i)) 1).isLt⟩ : Fin 3) = 1 := Fin.ext rfl
  rw [hr, hc]

/-- The third scattered update vector, entry by entry: output 2 of the network at the triplet's three updated costs. -/
theorem delta_col2 (i : S16000000.Idx) :
    val_main_v64 (F := Ideal) x0 x1 x2 x3 x4 x5 x6 x7 x8 x9 x10 x11 i
      = Cert.Mlp.delta x4 x5 x6 x7 (val_main_v11 (F := Ideal) x0 x1 x8 x9 i) (val_main_v19 (F := Ideal) x0 x2 x8 x10 i)
          (val_main_v27 (F := Ideal) x0 x3 x8 x11 i) 2 := by
  rw [val_main_v64_apply, val_main_v63_apply, output_apply]
  have hr : row (idx_main_v63 (idx_main_v64 i)) = i := funext fun a => by match a with | ⟨0, _⟩ => exact Fin.ext (Nat.div_one _)
  have hc : (⟨((idx_main_v63 (idx_main_v64 i)) 1).val, ((idx_main_v63 (idx_main_v64 i)) 1).isLt⟩ : Fin 3) = 2 := Fin.ext rfl
  rw [hr, hc]

end Cert.ReferenceIdeal.Stages

end
-- ==== Proof.Bridge.lean ====
/-
  The kernel program's four results, written as the reference's own stages of the same argument arrays.

  The scaled cost: the first kernel divides the zero-padded cost by the clamped float of the zero-padded counter and
  the program keeps the first 4000000 entries, where the padding is not seen; the reference divides the unpadded
  arrays. The same for the masked cost. Both programs then gather the scaled cost at the same wrapped indices, so the
  three updated costs agree once the kernel's re-laying to 125000 × 128 and back is undone (a shape cast there and back
  is the identity, and the sums are entrywise). The network outputs agree entry by entry (both are `delta` at the
  triplet's three updated costs), and the scatter-add chain into zeros and the final sum are the same operations on both
  sides.
-/
import proofs.«422504_j22411139350835_3_alg».proof.Proof.EdgePrep
import proofs.«422504_j22411139350835_3_alg».proof.Proof.MlpBlocks
import proofs.«422504_j22411139350835_3_alg».proof.Proof.KernelHost
import proofs.«422504_j22411139350835_3_alg».proof.Proof.RefStages
import Idealize.ShloMosaic.Lib.KernelVsHost
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The argument arrays as launched, at their literal types. -/
abbrev a0 : S4000000.Idx → Ideal .f32 := m ((c : Thread nD τ).loc main_arg0)
abbrev a1 : S16000000.Idx → Ideal .f32 := m ((c : Thread nD τ).loc main_arg1)
abbrev a2 : S16000000.Idx → Ideal .f32 := m ((c : Thread nD τ).loc main_arg2)
abbrev a3 : S16000000.Idx → Ideal .f32 := m ((c : Thread nD τ).loc main_arg3)
abbrev a4 : S3x16.Idx → Ideal .f32 := m ((c : Thread nD τ).loc main_arg4)
abbrev a5 : S16.Idx → Ideal .f32 := m ((c : Thread nD τ).loc main_arg5)
abbrev a6 : S16x3.Idx → Ideal .f32 := m ((c : Thread nD τ).loc main_arg6)
abbrev a7 : S3.Idx → Ideal .f32 := m ((c : Thread nD τ).loc main_arg7)
abbrev a8 : S4000000.Idx → BitVec 32 := m ((c : Thread nD τ).loc main_arg8)
abbrev a9 : S16000000.Idx → BitVec 32 := m ((c : Thread nD τ).loc main_arg9)
abbrev a10 : S16000000.Idx → BitVec 32 := m ((c : Thread nD τ).loc main_arg10)
abbrev a11 : S16000000.Idx → BitVec 32 := m ((c : Thread nD τ).loc main_arg11)

/-- Entry `i < 4000000` of an array padded at its high end is the array's entry `i`. -/
theorem pad_inside {α : Type} (x : S4000000.Idx → α) {u : Shape} (v : u.Idx → α) (hu : 0 < u.numel) (i : S4000000.Idx) (k : S4194304.Idx)
    (hk : (k 0).val = (i 0).val) :
    pad S4194304 ![0] ![194304] ![0] x v pads_S4000000_S4194304_01943040 hu k = x i :=
  pad_apply_of_inside ![0] ![194304] ![0] x v pads_S4000000_S4194304_01943040 hu k i
    (fun a => by match a with | ⟨0, _⟩ => show (k 0).val = 0 + (i 0).val * (0 + 1); omega)

/-- The index of the padded arrays under entry `i` of the cut. -/
def under (i : S4000000.Idx) : S4194304.Idx := ix1 (⟨(i 0).val, by have h : (i 0).val < 4000000 := (i 0).isLt; omega⟩ : Fin 4194304)

theorem cut_apply {α : Type} (x : S4194304.Idx → α) (i : S4000000.Idx) :
    extractStridedSlice S4000000 ![0] x slices_S4194304_S4000000_0 i = x (under i) :=
  extractStridedSlice_apply ![0] x slices_S4194304_S4000000_0 i (under i)
    (fun a => by match a with | ⟨0, _⟩ => show (i 0).val = 0 + (i 0).val; omega)

/-- The scaled cost the program gathers from is the reference's scaled cost. -/
theorem scaled_eq : HostSide.scaledCut m ρ c = Cert.ReferenceIdeal.Read.val_main_v3 (F := Ideal) (a0 m c) (a8 m c) := by
  have e : W5 m ρ c (Proc.devRef .tc main_v2_0) = EdgePrep.scaledOf (V4 m ρ c main_v0) (V4 m ρ c main_v1) :=
    (W5_arr m ρ c 2).trans (EdgePrep.scaled_arr (V4 m ρ) c)
  show extractStridedSlice S4000000 ![0] (W5 m ρ c (Proc.devRef .tc main_v2_0)) slices_S4194304_S4000000_0 = _
  rw [e, HostSide.cost_padded, HostSide.cnt_padded]
  funext i
  rw [cut_apply]
  show FloatOps.divf (pad S4194304 ![0] ![194304] ![0] (a0 m c) _ pads_S4000000_S4194304_01943040 h_S_ (under i))
      (FloatOps.maximumf (FloatOps.sitofp .f32 (pad S4194304 ![0] ![194304] ![0] (a8 m c) _ pads_S4000000_S4194304_01943040 h_S_ (under i))) _) = _
  rw [pad_inside (a0 m c) _ h_S_ i (under i) rfl, pad_inside (a8 m c) _ h_S_ i (under i) rfl]
  rfl

/-- The masked cost the program adds at the end is the reference's masked cost. -/
theorem masked_eq : W7 m ρ c (Proc.devRef .tc main_v4) = Cert.ReferenceIdeal.Read.val_main_v30 (F := Ideal) (a0 m c) (a8 m c) := by
  have e : W5 m ρ c (Proc.devRef .tc main_v2_1) = EdgePrep.maskedOf (V4 m ρ c main_v0) (V4 m ρ c main_v1) :=
    (W5_arr m ρ c 3).trans (EdgePrep.masked_arr (V4 m ρ) c)
  rw [HostSide.masked_cut, e, HostSide.cost_padded, HostSide.cnt_padded]
  funext i
  rw [cut_apply]
  show Scalar.select (IntOp.cmpi .sgt (pad S4194304 ![0] ![194304] ![0] (a8 m c) _ pads_S4000000_S4194304_01943040 h_S_ (under i)) _) _
      (pad S4194304 ![0] ![194304] ![0] (a0 m c) _ pads_S4000000_S4194304_01943040 h_S_ (under i)) = _
  rw [pad_inside (a0 m c) _ h_S_ i (under i) rfl, pad_inside (a8 m c) _ h_S_ i (under i) rfl]
  rfl

/-- A shape cast of an entrywise sum is the entrywise sum of the shape casts. -/
theorem shapeCast_add {s t : Shape} (x y : s.Idx → Ideal .f32) (h : s.ShapeCasts t) :
    shapeCast t (fun i => x i + y i) h = fun j => shapeCast t x h j + shapeCast t y h j := rfl

/-- The first sum, re-laid flat, is the reference's first updated cost. -/
theorem sum_flat0 : shapeCast S16000000 (MlpBlocks.sum0 (V6 m ρ) c) shapeCasts_S125000x128_S16000000
    = Cert.ReferenceIdeal.Read.val_main_v11 (F := Ideal) (a0 m c) (a1 m c) (a8 m c) (a9 m c) := by
  have e0 : MlpBlocks.cost0 (V6 m ρ) c = shapeCast S125000x128 (a1 m c) shapeCasts_S16000000_S125000x128 := HostSide.relaid_cost0 m ρ c
  have e1 : MlpBlocks.scal0 (V6 m ρ) c = shapeCast S125000x128 (Host.gather gather_S4000000_S16000000x1_S16000000_n_0_n_n_0_1_1 (HostSide.scaledCut m ρ c) (HostSide.wrapIdx (a9 m c))) shapeCasts_S16000000_S125000x128 := HostSide.relaid_gather0 m ρ c
  show shapeCast S16000000 (fun i => MlpBlocks.cost0 (V6 m ρ) c i + MlpBlocks.scal0 (V6 m ρ) c i) shapeCasts_S125000x128_S16000000 = _
  rw [e0, e1, shapeCast_add, shapeCast_shapeCast, shapeCast_shapeCast, scaled_eq]
  rfl

theorem sum_flat1 : shapeCast S16000000 (MlpBlocks.sum1 (V6 m ρ) c) shapeCasts_S125000x128_S16000000
    = Cert.ReferenceIdeal.Read.val_main_v19 (F := Ideal) (a0 m c) (a2 m c) (a8 m c) (a10 m c) := by
  have e0 : MlpBlocks.cost1 (V6 m ρ) c = shapeCast S125000x128 (a2 m c) shapeCasts_S16000000_S125000x128 := HostSide.relaid_cost1 m ρ c
  have e1 : MlpBlocks.scal1 (V6 m ρ) c = shapeCast S125000x128 (Host.gather gather_S4000000_S16000000x1_S16000000_n_0_n_n_0_1_1 (HostSide.scaledCut m ρ c) (HostSide.wrapIdx (a10 m c))) shapeCasts_S16000000_S125000x128 := HostSide.relaid_gather1 m ρ c
  show shapeCast S16000000 (fun i => MlpBlocks.cost1 (V6 m ρ) c i + MlpBlocks.scal1 (V6 m ρ) c i) shapeCasts_S125000x128_S16000000 = _
  rw [e0, e1, shapeCast_add, shapeCast_shapeCast, shapeCast_shapeCast, scaled_eq]
  rfl

theorem sum_flat2 : shapeCast S16000000 (MlpBlocks.sum2 (V6 m ρ) c) shapeCasts_S125000x128_S16000000
    = Cert.ReferenceIdeal.Read.val_main_v27 (F := Ideal) (a0 m c) (a3 m c) (a8 m c) (a11 m c) := by
  have e0 : MlpBlocks.cost2 (V6 m ρ) c = shapeCast S125000x128 (a3 m c) shapeCasts_S16000000_S125000x128 := HostSide.relaid_cost2 m ρ c
  have e1 : MlpBlocks.scal2 (V6 m ρ) c = shapeCast S125000x128 (Host.gather gather_S4000000_S16000000x1_S16000000_n_0_n_n_0_1_1 (HostSide.scaledCut m ρ c) (HostSide.wrapIdx (a11 m c))) shapeCasts_S16000000_S125000x128 := HostSide.relaid_gather2 m ρ c
  show shapeCast S16000000 (fun i => MlpBlocks.cost2 (V6 m ρ) c i + MlpBlocks.scal2 (V6 m ρ) c i) shapeCasts_S125000x128_S16000000 = _
  rw [e0, e1, shapeCast_add, shapeCast_shapeCast, shapeCast_shapeCast, scaled_eq]
  rfl

/-- The program's three cost results are the reference's. -/
theorem t12_eq : W8 m ρ c (Proc.devRef .tc main_v33) = Cert.ReferenceIdeal.Read.val_main_v11 (F := Ideal) (a0 m c) (a1 m c) (a8 m c) (a9 m c) := by
  rw [HostSide.flat_out0, (W7_arr m ρ c 10).trans (MlpBlocks.arr10 (V6 m ρ) c)]
  exact sum_flat0 m ρ c

theorem t13_eq : W8 m ρ c (Proc.devRef .tc main_v34) = Cert.ReferenceIdeal.Read.val_main_v19 (F := Ideal) (a0 m c) (a2 m c) (a8 m c) (a10 m c) := by
  rw [HostSide.flat_out1, (W7_arr m ρ c 11).trans (MlpBlocks.arr11 (V6 m ρ) c)]
  exact sum_flat1 m ρ c

theorem t23_eq : W8 m ρ c (Proc.devRef .tc main_v35) = Cert.ReferenceIdeal.Read.val_main_v27 (F := Ideal) (a0 m c) (a3 m c) (a8 m c) (a11 m c) := by
  rw [HostSide.flat_out2, (W7_arr m ρ c 12).trans (MlpBlocks.arr12 (V6 m ρ) c)]
  exact sum_flat2 m ρ c

/-- Update vector 0, re-laid flat, is the reference's update vector 0. -/
theorem upd0_eq : shapeCast S16000000 (W7 m ρ c (Proc.devRef .tc main_v32_3)) shapeCasts_S125000x128_S16000000
    = Cert.ReferenceIdeal.Read.val_main_v46 (F := Ideal) (a0 m c) (a1 m c) (a2 m c) (a3 m c) (a4 m c) (a5 m c) (a6 m c) (a7 m c) (a8 m c) (a9 m c) (a10 m c) (a11 m c) := by
  rw [(W7_arr m ρ c 13).trans (MlpBlocks.arr13 (V6 m ρ) c)]
  funext i
  rw [Cert.ReferenceIdeal.Stages.delta_col0]
  show Cert.Mlp.delta (W6 m ρ c (Proc.devRef .tc main_arg4)) (W6 m ρ c (Proc.devRef .tc main_arg5)) (W6 m ρ c (Proc.devRef .tc main_arg6)) (W6 m ρ c (Proc.devRef .tc main_arg7))
      (shapeCast S16000000 (MlpBlocks.sum0 (V6 m ρ) c) shapeCasts_S125000x128_S16000000 i)
      (shapeCast S16000000 (MlpBlocks.sum1 (V6 m ρ) c) shapeCasts_S125000x128_S16000000 i)
      (shapeCast S16000000 (MlpBlocks.sum2 (V6 m ρ) c) shapeCasts_S125000x128_S16000000 i) 0 = _
  rw [sum_flat0, sum_flat1, sum_flat2, HostSide.W6_main_arg4, HostSide.W6_main_arg5, HostSide.W6_main_arg6, HostSide.W6_main_arg7]

/-- Update vector 1, re-laid flat, is the reference's update vector 1. -/
theorem upd1_eq : shapeCast S16000000 (W7 m ρ c (Proc.devRef .tc main_v32_4)) shapeCasts_S125000x128_S16000000
    = Cert.ReferenceIdeal.Read.val_main_v55 (F := Ideal) (a0 m c) (a1 m c) (a2 m c) (a3 m c) (a4 m c) (a5 m c) (a6 m c) (a7 m c) (a8 m c) (a9 m c) (a10 m c) (a11 m c) := by
  rw [(W7_arr m ρ c 14).trans (MlpBlocks.arr14 (V6 m ρ) c)]
  funext i
  rw [Cert.ReferenceIdeal.Stages.delta_col1]
  show Cert.Mlp.delta (W6 m ρ c (Proc.devRef .tc main_arg4)) (W6 m ρ c (Proc.devRef .tc main_arg5)) (W6 m ρ c (Proc.devRef .tc main_arg6)) (W6 m ρ c (Proc.devRef .tc main_arg7))
      (shapeCast S16000000 (MlpBlocks.sum0 (V6 m ρ) c) shapeCasts_S125000x128_S16000000 i)
      (shapeCast S16000000 (MlpBlocks.sum1 (V6 m ρ) c) shapeCasts_S125000x128_S16000000 i)
      (shapeCast S16000000 (MlpBlocks.sum2 (V6 m ρ) c) shapeCasts_S125000x128_S16000000 i) 1 = _
  rw [sum_flat0, sum_flat1, sum_flat2, HostSide.W6_main_arg4, HostSide.W6_main_arg5, HostSide.W6_main_arg6, HostSide.W6_main_arg7]

/-- Update vector 2, re-laid flat, is the reference's update vector 2. -/
theorem upd2_eq : shapeCast S16000000 (W7 m ρ c (Proc.devRef .tc main_v32_5)) shapeCasts_S125000x128_S16000000
    = Cert.ReferenceIdeal.Read.val_main_v64 (F := Ideal) (a0 m c) (a1 m c) (a2 m c) (a3 m c) (a4 m c) (a5 m c) (a6 m c) (a7 m c) (a8 m c) (a9 m c) (a10 m c) (a11 m c) := by
  rw [(W7_arr m ρ c 15).trans (MlpBlocks.arr15 (V6 m ρ) c)]
  funext i
  rw [Cert.ReferenceIdeal.Stages.delta_col2]
  show Cert.Mlp.delta (W6 m ρ c (Proc.devRef .tc main_arg4)) (W6 m ρ c (Proc.devRef .tc main_arg5)) (W6 m ρ c (Proc.devRef .tc main_arg6)) (W6 m ρ c (Proc.devRef .tc main_arg7))
      (shapeCast S16000000 (MlpBlocks.sum0 (V6 m ρ) c) shapeCasts_S125000x128_S16000000 i)
      (shapeCast S16000000 (MlpBlocks.sum1 (V6 m ρ) c) shapeCasts_S125000x128_S16000000 i)
      (shapeCast S16000000 (MlpBlocks.sum2 (V6 m ρ) c) shapeCasts_S125000x128_S16000000 i) 2 = _
  rw [sum_flat0, sum_flat1, sum_flat2, HostSide.W6_main_arg4, HostSide.W6_main_arg5, HostSide.W6_main_arg6, HostSide.W6_main_arg7]

/-- The program's edge result is the reference's. -/
theorem edges_eq : W8 m ρ c (Proc.devRef .tc main_v61) = Cert.ReferenceIdeal.Read.val_main_v72 (F := Ideal) (a0 m c) (a1 m c) (a2 m c) (a3 m c) (a4 m c) (a5 m c) (a6 m c) (a7 m c) (a8 m c) (a9 m c) (a10 m c) (a11 m c) := by
  rw [HostSide.edges_out, masked_eq, upd0_eq, upd1_eq, upd2_eq]
  rfl

end Cert.Bridge

end
-- ==== Proof.lean ====
/-
  The certificate of the triplet message-passing kernel against its jnp reference.

  Both programs scale each edge cost by its clamped counter, gather the scaled costs at three index arrays and add them
  to the three triplet cost arrays, push the three updated costs of every triplet through a 3 → 16 → 3 network with a
  clamp at zero, scatter-add the three outputs back onto the edges and add the masked edge costs. The kernel program does
  the per-edge step and the per-triplet step in two pipelined kernels over padded and re-laid arrays and leaves the
  gathers and the scatter-adds on the host, exactly as the reference has them.

  Frames: the kernel programs' are the generated several-region frames; the reference's is its generated run with the
  results dropped. The idealization rewrote nothing. Equal results at the extended reals: the kernel program's run with
  its four results named (the launch over the generated segments, with a longer post), each result rewritten to the
  reference's own stage term of the argument arrays (`Cert.Bridge`); the reference's generated run states those terms.
  The only arithmetic fact used is that a sum over sixteen terms is the zero-started left-nested fold; no finiteness of
  the inputs is needed.
-/
import proofs.«422504_j22411139350835_3_alg».proof.Defs
import proofs.«422504_j22411139350835_3_alg».proof.Proof.Gen.Kernel
import proofs.«422504_j22411139350835_3_alg».proof.Proof.Gen.Kernel.Frame
import proofs.«422504_j22411139350835_3_alg».proof.Proof.Gen.KernelIdeal
import proofs.«422504_j22411139350835_3_alg».proof.Proof.Gen.KernelIdeal.Frame
import proofs.«422504_j22411139350835_3_alg».proof.Proof.Gen.ReferenceIdeal
import proofs.«422504_j22411139350835_3_alg».proof.Proof.Gen.ReferenceIdeal.Run
import proofs.«422504_j22411139350835_3_alg».proof.Proof.Gen.ReferenceIdeal.Read
import proofs.«422504_j22411139350835_3_alg».proof.Proof.Gen.Pre_finite_inputs
import proofs.«422504_j22411139350835_3_alg».proof.Proof.RunValues
import proofs.«422504_j22411139350835_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's generated run, its four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the arguments both programs end with the reference's stage terms of the kernel's
    argument arrays in their four results. -/
theorem algebraic : Cert.algebraic_KernelIdeal_ReferenceIdeal := by
  intro m ρ m' ρ' _ hagree
  refine ⟨_, _, _, _,
    (θ_run Cert.KernelIdeal.defs _ _).mono (fun r h c =>
      ⟨(h c).1.trans (Cert.Bridge.edges_eq m ρ c), (h c).2.1.trans (Cert.Bridge.t12_eq m ρ c),
        (h c).2.2.1.trans (Cert.Bridge.t13_eq m ρ c), (h c).2.2.2.1.trans (Cert.Bridge.t23_eq m ρ c), (h c).2.2.2.2⟩)
      (Cert.KernelIdeal.Gen.run_values (F := Ideal) m ρ), ?_⟩
  refine (θ_run Cert.ReferenceIdeal.defs _ _).mono (fun _ h c => ?_) (Cert.ReferenceIdeal.Value.run (F := Ideal) m' ρ')
  obtain ⟨h0, h1, h2, h3, hargs⟩ := h c
  obtain ⟨g0, g1, g2, g3, g4, g5, g6, g7, g8, g9, g10, g11⟩ := hagree c
  refine ⟨?_, ?_, ?_, ?_, hargs⟩
  · rw [h0, Cert.ReferenceIdeal.Read.val_main_v72_eq, g0, g1, g2, g3, g4, g5, g6, g7, g8, g9, g10, g11]
  · rw [h1, g0, g1, g8, g9]; rfl
  · rw [h2, g0, g2, g8, g10]; rfl
  · rw [h3, g0, g3, g8, g11]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
